-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S512x1024 : Shape := ⟨2, ![512, 1024]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S64x1024 : Shape := ⟨2, ![64, 1024]⟩

abbrev nBuf : Space → Nat
  | .hbm => 29
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S2x2048x1024, .bf16⟩
  | .hbm, ⟨24, _⟩ => ⟨S4096x1024, .bf16⟩
  | .hbm, ⟨25, _⟩ => ⟨S2x2048x1024, .bf16⟩
  | .hbm, ⟨26, _⟩ => ⟨S4096x1024, .bf16⟩
  | .hbm, ⟨27, _⟩ => ⟨S2x2048x1024, .bf16⟩
  | .hbm, ⟨28, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024, .f32⟩
  | .local _ .vmem, ⟨16, _⟩ => ⟨S512x1024, .bf16⟩
  | .local _ .vmem, ⟨17, _⟩ => ⟨S512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1024x1024, .bf16⟩
  | .local _ .vmem, ⟨25, _⟩ => ⟨S1024, .f32⟩
  | .local _ .vmem, ⟨26, _⟩ => ⟨S1x256x1024, .f32⟩
  | .local _ .vmem, ⟨27, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  transposes_S1024x1024_S1024x1024_1_0 : S1024x1024.Transposes [1, 0] S1024x1024
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  inb_S1x256x1024_S1x256x64_0_0_0 : ∀ a, (![0, 0, 0] : Fin 3 → Nat) a + S1x256x64.size a ≤ S1x256x1024.size a
  h_S1x256x64 : 0 < S1x256x64.numel
  shapeCasts_S1x256x64_S256x64 : S1x256x64.ShapeCasts S256x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1024x1024_S64x1024_0_0 : ∀ a, (![0, 0] : Fin 2 → Nat) a + S64x1024.size a ≤ S1024x1024.size a
  h_S64x1024 : 0 < S64x1024.numel
  shapeCasts_S64x1024_S64x1024 : S64x1024.ShapeCasts S64x1024
  inb_S1x256x1024_S1x256x64_0_0_64 : ∀ a, (![0, 0, 64] : Fin 3 → Nat) a + S1x256x64.size a ≤ S1x256x1024.size a
  inb_S1x2048x1024_S1x2048x64_0_0_64 : ∀ a, (![0, 0, 64] : Fin 3 → Nat) a + S1x2048x64.size a ≤ S1x2048x1024.size a
  inb_S1024x1024_S64x1024_64_0 : ∀ a, (![64, 0] : Fin 2 → Nat) a + S64x1024.size a ≤ S1024x1024.size a
  inb_S1x256x1024_S1x256x64_0_0_128 : ∀ a, (![0, 0, 128] : Fin 3 → Nat) a + S1x256x64.size a ≤ S1x256x1024.size a
  inb_S1x2048x1024_S1x2048x64_0_0_128 : ∀ a, (![0, 0, 128] : Fin 3 → Nat) a + S1x2048x64.size a ≤ S1x2048x1024.size a
  inb_S1024x1024_S64x1024_128_0 : ∀ a, (![128, 0] : Fin 2 → Nat) a + S64x1024.size a ≤ S1024x1024.size a
  inb_S1x256x1024_S1x256x64_0_0_192 : ∀ a, (![0, 0, 192] : Fin 3 → Nat) a + S1x256x64.size a ≤ S1x256x1024.size a
  inb_S1x2048x1024_S1x2048x64_0_0_192 : ∀ a, (![0, 0, 192] : Fin 3 → Nat) a + S1x2048x64.size a ≤ S1x2048x1024.size a
  inb_S1024x1024_S64x1024_192_0 : ∀ a, (![192, 0] : Fin 2 → Nat) a + S64x1024.size a ≤ S1024x1024.size a
  inb_S1x256x1024_S1x256x64_0_0_256 : ∀ a, (![0, 0, 256] : Fin 3 → Nat) a + S1x256x64.size a ≤ S1x256x1024.size a
  inb_S1x2048x1024_S1x2048x64_0_0_256 : ∀ a, (![0, 0, 256] : Fin 3 → Nat) a + S1x2048x64.size a ≤ S1x2048x1024.size a
  inb_S1024x1024_S64x1024_256_0 : ∀ a, (![256, 0] : Fin 2 → Nat) a + S64x1024.size a ≤ S1024x1024.size a
  inb_S1x256x1024_S1x256x64_0_0_320 : ∀ a, (![0, 0, 320] : Fin 3 → Nat) a + S1x256x64.size a ≤ S1x256x1024.size a
  inb_S1x2048x1024_S1x2048x64_0_0_320 : ∀ a, (![0, 0, 320] : Fin 3 → Nat) a + S1x2048x64.size a ≤ S1x2048x1024.size a
  inb_S1024x1024_S64x1024_320_0 : ∀ a, (![320, 0] : Fin 2 → Nat) a + S64x1024.size a ≤ S1024x1024.size a
  inb_S1x256x1024_S1x256x64_0_0_384 : ∀ a, (![0, 0, 384] : Fin 3 → Nat) a + S1x256x64.size a ≤ S1x256x1024.size a
  inb_S1x2048x1024_S1x2048x64_0_0_384 : ∀ a, (![0, 0, 384] : Fin 3 → Nat) a + S1x2048x64.size a ≤ S1x2048x1024.size a
  inb_S1024x1024_S64x1024_384_0 : ∀ a, (![384, 0] : Fin 2 → Nat) a + S64x1024.size a ≤ S1024x1024.size a
  inb_S1x256x1024_S1x256x64_0_0_448 : ∀ a, (![0, 0, 448] : Fin 3 → Nat) a + S1x256x64.size a ≤ S1x256x1024.size a
  inb_S1x2048x1024_S1x2048x64_0_0_448 : ∀ a, (![0, 0, 448] : Fin 3 → Nat) a + S1x2048x64.size a ≤ S1x2048x1024.size a
  inb_S1024x1024_S64x1024_448_0 : ∀ a, (![448, 0] : Fin 2 → Nat) a + S64x1024.size a ≤ S1024x1024.size a
  inb_S1x256x1024_S1x256x64_0_0_512 : ∀ a, (![0, 0, 512] : Fin 3 → Nat) a + S1x256x64.size a ≤ S1x256x1024.size a
  inb_S1x2048x1024_S1x2048x64_0_0_512 : ∀ a, (![0, 0, 512] : Fin 3 → Nat) a + S1x2048x64.size a ≤ S1x2048x1024.size a
  inb_S1024x1024_S64x1024_512_0 : ∀ a, (![512, 0] : Fin 2 → Nat) a + S64x1024.size a ≤ S1024x1024.size a
  inb_S1x256x1024_S1x256x64_0_0_576 : ∀ a, (![0, 0, 576] : Fin 3 → Nat) a + S1x256x64.size a ≤ S1x256x1024.size a
  inb_S1x2048x1024_S1x2048x64_0_0_576 : ∀ a, (![0, 0, 576] : Fin 3 → Nat) a + S1x2048x64.size a ≤ S1x2048x1024.size a
  inb_S1024x1024_S64x1024_576_0 : ∀ a, (![576, 0] : Fin 2 → Nat) a + S64x1024.size a ≤ S1024x1024.size a
  inb_S1x256x1024_S1x256x64_0_0_640 : ∀ a, (![0, 0, 640] : Fin 3 → Nat) a + S1x256x64.size a ≤ S1x256x1024.size a
  inb_S1x2048x1024_S1x2048x64_0_0_640 : ∀ a, (![0, 0, 640] : Fin 3 → Nat) a + S1x2048x64.size a ≤ S1x2048x1024.size a
  inb_S1024x1024_S64x1024_640_0 : ∀ a, (![640, 0] : Fin 2 → Nat) a + S64x1024.size a ≤ S1024x1024.size a
  inb_S1x256x1024_S1x256x64_0_0_704 : ∀ a, (![0, 0, 704] : Fin 3 → Nat) a + S1x256x64.size a ≤ S1x256x1024.size a
  inb_S1x2048x1024_S1x2048x64_0_0_704 : ∀ a, (![0, 0, 704] : Fin 3 → Nat) a + S1x2048x64.size a ≤ S1x2048x1024.size a
  inb_S1024x1024_S64x1024_704_0 : ∀ a, (![704, 0] : Fin 2 → Nat) a + S64x1024.size a ≤ S1024x1024.size a
  inb_S1x256x1024_S1x256x64_0_0_768 : ∀ a, (![0, 0, 768] : Fin 3 → Nat) a + S1x256x64.size a ≤ S1x256x1024.size a
  inb_S1x2048x1024_S1x2048x64_0_0_768 : ∀ a, (![0, 0, 768] : Fin 3 → Nat) a + S1x2048x64.size a ≤ S1x2048x1024.size a
  inb_S1024x1024_S64x1024_768_0 : ∀ a, (![768, 0] : Fin 2 → Nat) a + S64x1024.size a ≤ S1024x1024.size a
  inb_S1x256x1024_S1x256x64_0_0_832 : ∀ a, (![0, 0, 832] : Fin 3 → Nat) a + S1x256x64.size a ≤ S1x256x1024.size a
  inb_S1x2048x1024_S1x2048x64_0_0_832 : ∀ a, (![0, 0, 832] : Fin 3 → Nat) a + S1x2048x64.size a ≤ S1x2048x1024.size a
  inb_S1024x1024_S64x1024_832_0 : ∀ a, (![832, 0] : Fin 2 → Nat) a + S64x1024.size a ≤ S1024x1024.size a
  inb_S1x256x1024_S1x256x64_0_0_896 : ∀ a, (![0, 0, 896] : Fin 3 → Nat) a + S1x256x64.size a ≤ S1x256x1024.size a
  inb_S1x2048x1024_S1x2048x64_0_0_896 : ∀ a, (![0, 0, 896] : Fin 3 → Nat) a + S1x2048x64.size a ≤ S1x2048x1024.size a
  inb_S1024x1024_S64x1024_896_0 : ∀ a, (![896, 0] : Fin 2 → Nat) a + S64x1024.size a ≤ S1024x1024.size a
  inb_S1x256x1024_S1x256x64_0_0_960 : ∀ a, (![0, 0, 960] : Fin 3 → Nat) a + S1x256x64.size a ≤ S1x256x1024.size a
  inb_S1x2048x1024_S1x2048x64_0_0_960 : ∀ a, (![0, 0, 960] : Fin 3 → Nat) a + S1x2048x64.size a ≤ S1x2048x1024.size a
  inb_S1024x1024_S64x1024_960_0 : ∀ a, (![960, 0] : Fin 2 → Nat) a + S64x1024.size a ≤ S1024x1024.size a
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S2x2048x1024.size a
  hwx3_0 : ∀ i : grid3.Coords, EltTy.bits .bf16 = 32 ∨ (Rect.block (s := S2x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S2x2048x1024.size a
  hwx3_1 : ∀ i : grid3.Coords, EltTy.bits .bf16 = 32 ∨ (Rect.block (s := S2x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S2x2048x1024.size a
  hwx3_2 : ∀ i : grid3.Coords, EltTy.bits .bf16 = 32 ∨ (Rect.block (s := S2x2048x1024) S1x2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024.size a ≤ S1024.size a
  hwx3_4 : ∀ i : grid3.Coords, EltTy.bits .f32 = 32 ∨ (Rect.block (s := S1024) S1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x1024.size a ≤ S2x2048x1024.size a
  hwx3_5 : ∀ i : grid3.Coords, EltTy.bits .f32 = 32 ∨ (Rect.block (s := S2x2048x1024) S1x256x1024.size (cc3_transform_5 i) (hinb3_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Spec.lean ====
/-
  Multi-head attention over one batch entry, as functions on the extended reals.

  A 1024-wide row is sixteen heads of sixty-four columns; column 64·h + d is coordinate d of head h.
  A projection is y[r, e] = Σ_D x[r, D] · wT[D, e] + b[e]. For a head h, the score of query row t against
  key row j is (Σ_d Q[t, 64h+d] · K[j, 64h+d]) · 1/8; a row of scores is shifted by its maximum, exponentiated
  and divided by the sum of the exponentials; the head's output is the weighted sum of the value rows; the
  result is the sum over all heads and coordinates of the head outputs against the output weights, plus the bias.
-/
import Idealize.ShloMosaic.PureOps.Ideal
import Idealize.ShloMosaic.PureOps.Ideal.Laws
import Idealize.ShloMosaic.Lib.ValueIdx

noncomputable section

open scoped BigOperators

namespace Cert.Mha

open Idealize.ShloMosaic

/-- Column 64·h + d of a 1024-wide row: coordinate d of head h. -/
def col (h : Fin 16) (d : Fin 64) : Fin 1024 := ⟨64 * h.val + d.val, by omega⟩

/-- Row 2048·β + t of the 4096 flattened rows: row t of batch entry β. -/
def row (β : Fin 2) (t : Fin 2048) : Fin 4096 := ⟨2048 * β.val + t.val, by omega⟩

/-- The scale 1/8, as the word the product is taken with. -/
abbrev eighth : EReal := Ideal.ofBits .f32 0x3E000000#32

/-- The bottom element every row maximum starts from. -/
abbrev negInf : EReal := Ideal.ofBits .f32 0xFF800000#32

/-- A projection: y[r, e] = Σ_D x[r, D] · wT[D, e] + b[e]. -/
def lin (x : Fin 4096 → Fin 1024 → EReal) (wT : Fin 1024 → Fin 1024 → EReal) (b : Fin 1024 → EReal)
    (r : Fin 4096) (e : Fin 1024) : EReal :=
  (∑ D : Fin 1024, x r D * wT D e) + b e

/-- The scaled score of query row t against key row j in head h. -/
def score (Q K : Fin 2048 → Fin 1024 → EReal) (h : Fin 16) (t j : Fin 2048) : EReal :=
  (∑ d : Fin 64, Q t (col h d) * K j (col h d)) * eighth

/-- The maximum of a row of scores. -/
def rowMax (s : Fin 2048 → EReal) : EReal := (Finset.univ : Finset (Fin 2048)).fold max negInf s

/-- A score shifted by its row's maximum, exponentiated. -/
def expo (s : Fin 2048 → EReal) (j : Fin 2048) : EReal := Ideal.exp (s j - rowMax s)

/-- The softmax weight of column j of a row of scores. -/
def weight (s : Fin 2048 → EReal) (j : Fin 2048) : EReal := Ideal.div (expo s j) (∑ j' : Fin 2048, expo s j')

/-- Coordinate d of head h's output at query row t: the weighted sum of the value rows. -/
def headOut (Q K V : Fin 2048 → Fin 1024 → EReal) (h : Fin 16) (t : Fin 2048) (d : Fin 64) : EReal :=
  ∑ j : Fin 2048, weight (score Q K h t) j * V j (col h d)

/-- One head's contribution to the output projection at (t, e). -/
def headProj (Q K V : Fin 2048 → Fin 1024 → EReal) (woT : Fin 1024 → Fin 1024 → EReal) (h : Fin 16)
    (t : Fin 2048) (e : Fin 1024) : EReal :=
  ∑ d : Fin 64, headOut Q K V h t d * woT (col h d) e

/-- Attention over one batch entry with the output projection: the heads' contributions summed, plus the bias. -/
def attn (Q K V : Fin 2048 → Fin 1024 → EReal) (woT : Fin 1024 → Fin 1024 → EReal) (bo : Fin 1024 → EReal)
    (t : Fin 2048) (e : Fin 1024) : EReal :=
  (∑ h : Fin 16, headProj Q K V woT h t e) + bo e

/-- The whole computation at (β, t, e) from the eleven arguments read by coordinates: three projections of the
    inputs by the transposed weights, attention over batch entry β, the output projection. -/
def mha (q k v : Fin 2 → Fin 2048 → Fin 1024 → EReal) (Wq Wk Wv Wo : Fin 1024 → Fin 1024 → EReal)
    (bq bk bv bo : Fin 1024 → EReal) (β : Fin 2) (t : Fin 2048) (e : Fin 1024) : EReal :=
  attn
    (fun t' D => (∑ D' : Fin 1024, q β t' D' * Wq D D') + bq D)
    (fun t' D => (∑ D' : Fin 1024, k β t' D' * Wk D D') + bk D)
    (fun t' D => (∑ D' : Fin 1024, v β t' D' * Wv D D') + bv D)
    (fun D e' => Wo e' D) bo t e

end Cert.Mha

end
-- ==== Proof.LinRegion0.lean ====
/-
  The first projection's output array after its run.

  The region's grid has eight points; point t takes rows 512·t … 512·t + 511 of the 4096 flattened input rows, the
  whole transposed weight matrix and the whole bias, and writes back the same rows of the output. At (r, e) the
  output holds Σ_D x[r, D] · wT[D, e] + b[e] of the arrays as the region finds them.
-/
import proofs.«400153_j670014898403_3_alg».proof.Proof.Gen.KernelIdeal.Frame
import proofs.«400153_j670014898403_3_alg».proof.Proof.LibDot
import proofs.«400153_j670014898403_3_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Lin0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- THE PAYLOAD AT (p, q): the block product into a zero accumulator is the sum over the contraction index, the bias
    row is broadcast down the rows, and the two roundings are the identity on the extended reals. -/
private theorem pay_apply (X : Vec Ideal S512x1024 .f32) (W : Vec Ideal S1024x1024 .bf16) (B : Vec Ideal S1024 .f32)
    (p : Fin 512) (q : Fin 1024) :
    k0_pay1 X W B (ix2 p q) = (∑ D : Fin 1024, X (ix2 p D) * W (ix2 D q)) + B (ix1 q) := by
  unfold k0_pay1
  rw [truncf_apply, addf_apply]
  refine congrArg₂ (· + ·) ?_ ?_
  · -- the product: accumulator entry 0, then Σ_D l (p, D) · r (D, q), the operands' casts to their own shapes dropped
    refine (Cert.LibDot.matmul_rows_apply _ rfl rfl rfl rfl rfl rfl none _ _ _ p q).trans ?_
    rw [constant_apply, Ideal.ofBits_zero_f32, zero_add]
    refine Finset.sum_congr rfl fun D _ => ?_
    rw [truncf_apply, shapeCast_self, shapeCast_self]
  · -- the bias: the one row [1, 1024] read at column q, whatever the row p
    refine (broadcastTo_1b_ab_apply _ _ p q).trans ?_
    exact shapeCast_a_1a_apply _ _ 0 q

/-- The zero offsets of a rank-2 block, as the constant function. -/
private theorem zeroPair : (![0, 0] : Fin 2 → Nat) = fun _ => 0 := funext fun a => by fin_cases a <;> rfl

/-- The zero offset of a rank-1 block, as the constant function. -/
private theorem zeroOne : (![0] : Fin 1 → Nat) = fun _ => 0 := funext fun a => by fin_cases a; rfl

/-- The projection of the arrays as the region finds them, at every index of the output array. -/
private abbrev proj (c : Dev nD) : S4096x1024.Idx → Elt Ideal .bf16 := fun i =>
  Cert.Mha.lin (fun r D => V c main_v8 (ix2 r D)) (fun D e => V c main_v1 (ix2 D e))
    (fun e => V c main_arg4 (ix1 e)) (i 0) (i 1)

/-- The index maps over the grid: the input rows move with the output rows, the weights and the bias stay at block 0,
    every block spans all the columns, and the row blocks are 0 … 7. -/
private theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 7 :=
  (by decide +kernel : ∀ t : Fin grid0.N, _)

/-- Row p of point t's block of rows: row 512·b + p of the array, b the point's block index. -/
private def blockRow (t : Fin cfg0.N) (p : Fin 512) : Fin 4096 :=
  ⟨win0_3.index t (0 : Fin 2) * 512 + p.val, by
    have h := (idx_facts t).2.2.2.2.2.2
    have hp := p.isLt
    omega⟩

/-- Point t's output block sits at rows 512·b … 512·b + 511 of the array, all columns. -/
private theorem emb_out (t : Fin cfg0.N) (p : Fin 512) (q : Fin 1024) :
    ((cfg0.win 3).blk t).view.emb (ix2 p q) = ix2 (blockRow t p) q := by
  obtain ⟨-, -, -, -, -, e, -⟩ := idx_facts t
  funext a; apply Fin.ext
  match a with
  | ⟨0, _⟩ => show win0_3.index t (0 : Fin 2) * 512 + 1 * p.val = win0_3.index t (0 : Fin 2) * 512 + p.val; omega
  | ⟨1, _⟩ => show win0_3.index t (1 : Fin 2) * 1024 + 1 * q.val = q.val; omega

/-- Point t's block of input rows, read at (p, D): row 512·b + p of the input array. -/
private theorem read_rows (c : Dev nD) (t : Fin cfg0.N) (p : Fin 512) (D : Fin 1024) :
    iblk0 V c 0 t (ix2 p D) = V c main_v8 (ix2 (blockRow t p) D) := by
  obtain ⟨e, e', -, -, -, -, -⟩ := idx_facts t
  show V c main_v8 (((cfg0.win 0).blk t).view.emb (ix2 p D)) = _
  refine congrArg (V c main_v8) ?_
  funext a; apply Fin.ext
  match a with
  | ⟨0, _⟩ => show win0_0.index t (0 : Fin 2) * 512 + 1 * p.val = win0_3.index t (0 : Fin 2) * 512 + p.val; omega
  | ⟨1, _⟩ => show win0_0.index t (1 : Fin 2) * 1024 + 1 * D.val = D.val; omega

/-- Every point's weight block is the whole weight array. -/
private theorem read_weights (c : Dev nD) (t : Fin cfg0.N) (D q : Fin 1024) :
    iblk0 V c 1 t (ix2 D q) = V c main_v1 (ix2 D q) := by
  obtain ⟨-, -, e, e', -, -, -⟩ := idx_facts t
  show V c main_v1 (((cfg0.win 1).blk t).view.emb (ix2 D q)) = _
  refine congrArg (V c main_v1) ?_
  funext a; apply Fin.ext
  match a with
  | ⟨0, _⟩ => show win0_1.index t (0 : Fin 2) * 1024 + 1 * D.val = D.val; omega
  | ⟨1, _⟩ => show win0_1.index t (1 : Fin 2) * 1024 + 1 * q.val = q.val; omega

/-- Every point's bias block is the whole bias. -/
private theorem read_bias (c : Dev nD) (t : Fin cfg0.N) (q : Fin 1024) :
    iblk0 V c 2 t (ix1 q) = V c main_arg4 (ix1 q) := by
  obtain ⟨-, -, -, -, e, -, -⟩ := idx_facts t
  show V c main_arg4 (((cfg0.win 2).blk t).view.emb (ix1 q)) = _
  refine congrArg (V c main_arg4) ?_
  funext a; apply Fin.ext
  match a with
  | ⟨0, _⟩ => show win0_2.index t (0 : Fin 1) * 1024 + 1 * q.val = q.val; omega

/-- WHAT POINT t WRITES BACK is block t of the projection: the body's one store fills the block with the payload of
    the three blocks it loads, and those are the rows 512·b … of the input, all the weights and all the bias. -/
private theorem flushed_eq (c : Dev nD) (t : Fin cfg0.N) :
    (dat0 (F := Ideal) V c).flushed 3 t = ((cfg0.win 3).blk t).view.read (Elt Ideal) (proj V c) := by
  show (cfg0.win 3).cut (grid0.coords t) ((dat0 (F := Ideal) V c).after 3 t) = _
  rw [after0_3]
  unfold out0_3
  rw [View.canon_unit_zero zeroPair]
  simp only [View.ld_unit_zero (S := S512x1024) zeroPair, View.ld_unit_zero (S := S1024x1024) zeroPair,
    View.ld_unit_zero (S := S1024) zeroOne]
  funext j
  obtain ⟨p, q, rfl⟩ : ∃ (p : Fin 512) (q : Fin 1024), j = ix2 p q := ⟨j 0, j 1, eq_ix2 j⟩
  show k0_pay1 (iblk0 V c 0 t) (iblk0 V c 1 t) (iblk0 V c 2 t) (ix2 p q)
    = proj V c (((cfg0.win 3).blk t).view.emb (ix2 p q))
  rw [pay_apply, emb_out]
  show _ = Cert.Mha.lin (fun r D => V c main_v8 (ix2 r D)) (fun D e => V c main_v1 (ix2 D e))
    (fun e => V c main_arg4 (ix1 e)) (blockRow t p) q
  unfold Cert.Mha.lin
  refine congrArg₂ (· + ·) (Finset.sum_congr rfl fun D _ => ?_) (read_bias V c t q)
  rw [read_rows, read_weights]

/-- Every block of rows is some point's. -/
private theorem idx_onto : ∀ b : Fin 8, ∃ t : Fin cfg0.N, win0_3.index t (0 : Fin 2) = b.val :=
  (by decide +kernel : ∀ b : Fin 8, ∃ t : Fin grid0.N, win0_3.index t (0 : Fin 2) = b.val)

/-- An index of the array is in point t's block iff each coordinate is in the block's range on its axis. -/
private theorem mem_blk (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v11).slice (win0_3.rect t)).set ↔ _
  rw [View.set_slice_whole, Rect.mem_set_unit]
  exact Iff.rfl

/-- THE COVER: row r lies in the block of the point whose block index is r / 512, so the blocks of rows tile the
    array. -/
private theorem cover (i : S4096x1024.Idx) :
    ∃ t : Fin cfg0.N, (cfg0.win 3).flush t = true ∧ i ∈ ((cfg0.win 3).blk t).view.set := by
  have hr : (i 0).val < 4096 := (i 0).isLt
  have hc : (i 1).val < 1024 := (i 1).isLt
  obtain ⟨t, ht⟩ := idx_onto ⟨(i 0).val / 512, by omega⟩
  have hb : win0_3.index t (0 : Fin 2) = (i 0).val / 512 := ht
  have hcol := (idx_facts t).2.2.2.2.2.1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The output array after the region's run is the projection at every index: every point writes back its block of
    it, and the blocks cover the array. -/
private theorem arr_eq (c : Dev nD) : (dat0 (F := Ideal) V c).arrAt 3 cfg0.N = proj V c :=
  (dat0 (F := Ideal) V c).arrAt_eq_of_cover 3 (proj V c) (fun t _ => flushed_eq V c t) cover

/-- THE OUTPUT ARRAY AT (r, e): the projection of the input rows by the transposed weights, plus the bias. -/
theorem arr_apply (c : Dev nD) (r : Fin 4096) (e : Fin 1024) :
    (dat0 (F := Ideal) V c).arrAt 3 cfg0.N (ix2 r e)
      = Cert.Mha.lin (fun r D => V c main_v8 (ix2 r D)) (fun D e => V c main_v1 (ix2 D e))
          (fun e => V c main_arg4 (ix1 e)) r e := by
  exact congrFun (arr_eq V c) (ix2 r e)

end Cert.KernelIdeal.Lin0

end
-- ==== Proof.LinRegion1.lean ====
/-
  The second projection's output array after its run.

  The region's grid has eight points; point t takes rows 512·t … 512·t + 511 of the 4096 flattened input rows, the
  whole transposed weight matrix and the whole bias, and writes back the same rows of the output. At (r, e) the
  output holds Σ_D x[r, D] · wT[D, e] + b[e] of the arrays as the region finds them.
-/
import proofs.«400153_j670014898403_3_alg».proof.Proof.Gen.KernelIdeal.Frame
import proofs.«400153_j670014898403_3_alg».proof.Proof.LibDot
import proofs.«400153_j670014898403_3_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Lin1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- THE PAYLOAD AT (p, q): the block product into a zero accumulator is the sum over the contraction index, the bias
    row is broadcast down the rows, and the two roundings are the identity on the extended reals. -/
private theorem pay_apply (X : Vec Ideal S512x1024 .f32) (W : Vec Ideal S1024x1024 .bf16) (B : Vec Ideal S1024 .f32)
    (p : Fin 512) (q : Fin 1024) :
    k1_pay1 X W B (ix2 p q) = (∑ D : Fin 1024, X (ix2 p D) * W (ix2 D q)) + B (ix1 q) := by
  unfold k1_pay1
  rw [truncf_apply, addf_apply]
  refine congrArg₂ (· + ·) ?_ ?_
  · -- the product: accumulator entry 0, then Σ_D l (p, D) · r (D, q), the operands' casts to their own shapes dropped
    refine (Cert.LibDot.matmul_rows_apply _ rfl rfl rfl rfl rfl rfl none _ _ _ p q).trans ?_
    rw [constant_apply, Ideal.ofBits_zero_f32, zero_add]
    refine Finset.sum_congr rfl fun D _ => ?_
    rw [truncf_apply, shapeCast_self, shapeCast_self]
  · -- the bias: the one row [1, 1024] read at column q, whatever the row p
    refine (broadcastTo_1b_ab_apply _ _ p q).trans ?_
    exact shapeCast_a_1a_apply _ _ 0 q

/-- The zero offsets of a rank-2 block, as the constant function. -/
private theorem zeroPair : (![0, 0] : Fin 2 → Nat) = fun _ => 0 := funext fun a => by fin_cases a <;> rfl

/-- The zero offset of a rank-1 block, as the constant function. -/
private theorem zeroOne : (![0] : Fin 1 → Nat) = fun _ => 0 := funext fun a => by fin_cases a; rfl

/-- The projection of the arrays as the region finds them, at every index of the output array. -/
private abbrev proj (c : Dev nD) : S4096x1024.Idx → Elt Ideal .bf16 := fun i =>
  Cert.Mha.lin (fun r D => V c main_v9 (ix2 r D)) (fun D e => V c main_v3 (ix2 D e))
    (fun e => V c main_arg6 (ix1 e)) (i 0) (i 1)

/-- The index maps over the grid: the input rows move with the output rows, the weights and the bias stay at block 0,
    every block spans all the columns, and the row blocks are 0 … 7. -/
private theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0
    ∧ win1_3.index t (0 : Fin 2) ≤ 7 :=
  (by decide +kernel : ∀ t : Fin grid1.N, _)

/-- Row p of point t's block of rows: row 512·b + p of the array, b the point's block index. -/
private def blockRow (t : Fin cfg1.N) (p : Fin 512) : Fin 4096 :=
  ⟨win1_3.index t (0 : Fin 2) * 512 + p.val, by
    have h := (idx_facts t).2.2.2.2.2.2
    have hp := p.isLt
    omega⟩

/-- Point t's output block sits at rows 512·b … 512·b + 511 of the array, all columns. -/
private theorem emb_out (t : Fin cfg1.N) (p : Fin 512) (q : Fin 1024) :
    ((cfg1.win 3).blk t).view.emb (ix2 p q) = ix2 (blockRow t p) q := by
  obtain ⟨-, -, -, -, -, e, -⟩ := idx_facts t
  funext a; apply Fin.ext
  match a with
  | ⟨0, _⟩ => show win1_3.index t (0 : Fin 2) * 512 + 1 * p.val = win1_3.index t (0 : Fin 2) * 512 + p.val; omega
  | ⟨1, _⟩ => show win1_3.index t (1 : Fin 2) * 1024 + 1 * q.val = q.val; omega

/-- Point t's block of input rows, read at (p, D): row 512·b + p of the input array. -/
private theorem read_rows (c : Dev nD) (t : Fin cfg1.N) (p : Fin 512) (D : Fin 1024) :
    iblk1 V c 0 t (ix2 p D) = V c main_v9 (ix2 (blockRow t p) D) := by
  obtain ⟨e, e', -, -, -, -, -⟩ := idx_facts t
  show V c main_v9 (((cfg1.win 0).blk t).view.emb (ix2 p D)) = _
  refine congrArg (V c main_v9) ?_
  funext a; apply Fin.ext
  match a with
  | ⟨0, _⟩ => show win1_0.index t (0 : Fin 2) * 512 + 1 * p.val = win1_3.index t (0 : Fin 2) * 512 + p.val; omega
  | ⟨1, _⟩ => show win1_0.index t (1 : Fin 2) * 1024 + 1 * D.val = D.val; omega

/-- Every point's weight block is the whole weight array. -/
private theorem read_weights (c : Dev nD) (t : Fin cfg1.N) (D q : Fin 1024) :
    iblk1 V c 1 t (ix2 D q) = V c main_v3 (ix2 D q) := by
  obtain ⟨-, -, e, e', -, -, -⟩ := idx_facts t
  show V c main_v3 (((cfg1.win 1).blk t).view.emb (ix2 D q)) = _
  refine congrArg (V c main_v3) ?_
  funext a; apply Fin.ext
  match a with
  | ⟨0, _⟩ => show win1_1.index t (0 : Fin 2) * 1024 + 1 * D.val = D.val; omega
  | ⟨1, _⟩ => show win1_1.index t (1 : Fin 2) * 1024 + 1 * q.val = q.val; omega

/-- Every point's bias block is the whole bias. -/
private theorem read_bias (c : Dev nD) (t : Fin cfg1.N) (q : Fin 1024) :
    iblk1 V c 2 t (ix1 q) = V c main_arg6 (ix1 q) := by
  obtain ⟨-, -, -, -, e, -, -⟩ := idx_facts t
  show V c main_arg6 (((cfg1.win 2).blk t).view.emb (ix1 q)) = _
  refine congrArg (V c main_arg6) ?_
  funext a; apply Fin.ext
  match a with
  | ⟨0, _⟩ => show win1_2.index t (0 : Fin 1) * 1024 + 1 * q.val = q.val; omega

/-- WHAT POINT t WRITES BACK is block t of the projection: the body's one store fills the block with the payload of
    the three blocks it loads, and those are the rows 512·b … of the input, all the weights and all the bias. -/
private theorem flushed_eq (c : Dev nD) (t : Fin cfg1.N) :
    (dat1 (F := Ideal) V c).flushed 3 t = ((cfg1.win 3).blk t).view.read (Elt Ideal) (proj V c) := by
  show (cfg1.win 3).cut (grid1.coords t) ((dat1 (F := Ideal) V c).after 3 t) = _
  rw [after1_3]
  unfold out1_3
  rw [View.canon_unit_zero zeroPair]
  simp only [View.ld_unit_zero (S := S512x1024) zeroPair, View.ld_unit_zero (S := S1024x1024) zeroPair,
    View.ld_unit_zero (S := S1024) zeroOne]
  funext j
  obtain ⟨p, q, rfl⟩ : ∃ (p : Fin 512) (q : Fin 1024), j = ix2 p q := ⟨j 0, j 1, eq_ix2 j⟩
  show k1_pay1 (iblk1 V c 0 t) (iblk1 V c 1 t) (iblk1 V c 2 t) (ix2 p q)
    = proj V c (((cfg1.win 3).blk t).view.emb (ix2 p q))
  rw [pay_apply, emb_out]
  show _ = Cert.Mha.lin (fun r D => V c main_v9 (ix2 r D)) (fun D e => V c main_v3 (ix2 D e))
    (fun e => V c main_arg6 (ix1 e)) (blockRow t p) q
  unfold Cert.Mha.lin
  refine congrArg₂ (· + ·) (Finset.sum_congr rfl fun D _ => ?_) (read_bias V c t q)
  rw [read_rows, read_weights]

/-- Every block of rows is some point's. -/
private theorem idx_onto : ∀ b : Fin 8, ∃ t : Fin cfg1.N, win1_3.index t (0 : Fin 2) = b.val :=
  (by decide +kernel : ∀ b : Fin 8, ∃ t : Fin grid1.N, win1_3.index t (0 : Fin 2) = b.val)

/-- An index of the array is in point t's block iff each coordinate is in the block's range on its axis. -/
private theorem mem_blk (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v13).slice (win1_3.rect t)).set ↔ _
  rw [View.set_slice_whole, Rect.mem_set_unit]
  exact Iff.rfl

/-- THE COVER: row r lies in the block of the point whose block index is r / 512, so the blocks of rows tile the
    array. -/
private theorem cover (i : S4096x1024.Idx) :
    ∃ t : Fin cfg1.N, (cfg1.win 3).flush t = true ∧ i ∈ ((cfg1.win 3).blk t).view.set := by
  have hr : (i 0).val < 4096 := (i 0).isLt
  have hc : (i 1).val < 1024 := (i 1).isLt
  obtain ⟨t, ht⟩ := idx_onto ⟨(i 0).val / 512, by omega⟩
  have hb : win1_3.index t (0 : Fin 2) = (i 0).val / 512 := ht
  have hcol := (idx_facts t).2.2.2.2.2.1
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- The output array after the region's run is the projection at every index: every point writes back its block of
    it, and the blocks cover the array. -/
private theorem arr_eq (c : Dev nD) : (dat1 (F := Ideal) V c).arrAt 3 cfg1.N = proj V c :=
  (dat1 (F := Ideal) V c).arrAt_eq_of_cover 3 (proj V c) (fun t _ => flushed_eq V c t) cover

/-- THE OUTPUT ARRAY AT (r, e): the projection of the input rows by the transposed weights, plus the bias. -/
theorem arr_apply (c : Dev nD) (r : Fin 4096) (e : Fin 1024) :
    (dat1 (F := Ideal) V c).arrAt 3 cfg1.N (ix2 r e)
      = Cert.Mha.lin (fun r D => V c main_v9 (ix2 r D)) (fun D e => V c main_v3 (ix2 D e))
          (fun e => V c main_arg6 (ix1 e)) r e := by
  exact congrFun (arr_eq V c) (ix2 r e)

end Cert.KernelIdeal.Lin1

end
-- ==== Proof.LinRegion2.lean ====
/-
  The third projection's output array after its run.

  The region's grid has eight points; point t takes rows 512·t … 512·t + 511 of the 4096 flattened input rows, the
  whole transposed weight matrix and the whole bias, and writes back the same rows of the output. At (r, e) the
  output holds Σ_D x[r, D] · wT[D, e] + b[e] of the arrays as the region finds them.
-/
import proofs.«400153_j670014898403_3_alg».proof.Proof.Gen.KernelIdeal.Frame
import proofs.«400153_j670014898403_3_alg».proof.Proof.LibDot
import proofs.«400153_j670014898403_3_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Lin2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- THE PAYLOAD AT (p, q): the block product into a zero accumulator is the sum over the contraction index, the bias
    row is broadcast down the rows, and the two roundings are the identity on the extended reals. -/
private theorem pay_apply (X : Vec Ideal S512x1024 .f32) (W : Vec Ideal S1024x1024 .bf16) (B : Vec Ideal S1024 .f32)
    (p : Fin 512) (q : Fin 1024) :
    k2_pay1 X W B (ix2 p q) = (∑ D : Fin 1024, X (ix2 p D) * W (ix2 D q)) + B (ix1 q) := by
  unfold k2_pay1
  rw [truncf_apply, addf_apply]
  refine congrArg₂ (· + ·) ?_ ?_
  · -- the product: accumulator entry 0, then Σ_D l (p, D) · r (D, q), the operands' casts to their own shapes dropped
    refine (Cert.LibDot.matmul_rows_apply _ rfl rfl rfl rfl rfl rfl none _ _ _ p q).trans ?_
    rw [constant_apply, Ideal.ofBits_zero_f32, zero_add]
    refine Finset.sum_congr rfl fun D _ => ?_
    rw [truncf_apply, shapeCast_self, shapeCast_self]
  · -- the bias: the one row [1, 1024] read at column q, whatever the row p
    refine (broadcastTo_1b_ab_apply _ _ p q).trans ?_
    exact shapeCast_a_1a_apply _ _ 0 q

/-- The zero offsets of a rank-2 block, as the constant function. -/
private theorem zeroPair : (![0, 0] : Fin 2 → Nat) = fun _ => 0 := funext fun a => by fin_cases a <;> rfl

/-- The zero offset of a rank-1 block, as the constant function. -/
private theorem zeroOne : (![0] : Fin 1 → Nat) = fun _ => 0 := funext fun a => by fin_cases a; rfl

/-- The projection of the arrays as the region finds them, at every index of the output array. -/
private abbrev proj (c : Dev nD) : S4096x1024.Idx → Elt Ideal .bf16 := fun i =>
  Cert.Mha.lin (fun r D => V c main_v10 (ix2 r D)) (fun D e => V c main_v5 (ix2 D e))
    (fun e => V c main_arg8 (ix1 e)) (i 0) (i 1)

/-- The index maps over the grid: the input rows move with the output rows, the weights and the bias stay at block 0,
    every block spans all the columns, and the row blocks are 0 … 7. -/
private theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0
    ∧ win2_3.index t (0 : Fin 2) ≤ 7 :=
  (by decide +kernel : ∀ t : Fin grid2.N, _)

/-- Row p of point t's block of rows: row 512·b + p of the array, b the point's block index. -/
private def blockRow (t : Fin cfg2.N) (p : Fin 512) : Fin 4096 :=
  ⟨win2_3.index t (0 : Fin 2) * 512 + p.val, by
    have h := (idx_facts t).2.2.2.2.2.2
    have hp := p.isLt
    omega⟩

/-- Point t's output block sits at rows 512·b … 512·b + 511 of the array, all columns. -/
private theorem emb_out (t : Fin cfg2.N) (p : Fin 512) (q : Fin 1024) :
    ((cfg2.win 3).blk t).view.emb (ix2 p q) = ix2 (blockRow t p) q := by
  obtain ⟨-, -, -, -, -, e, -⟩ := idx_facts t
  funext a; apply Fin.ext
  match a with
  | ⟨0, _⟩ => show win2_3.index t (0 : Fin 2) * 512 + 1 * p.val = win2_3.index t (0 : Fin 2) * 512 + p.val; omega
  | ⟨1, _⟩ => show win2_3.index t (1 : Fin 2) * 1024 + 1 * q.val = q.val; omega

/-- Point t's block of input rows, read at (p, D): row 512·b + p of the input array. -/
private theorem read_rows (c : Dev nD) (t : Fin cfg2.N) (p : Fin 512) (D : Fin 1024) :
    iblk2 V c 0 t (ix2 p D) = V c main_v10 (ix2 (blockRow t p) D) := by
  obtain ⟨e, e', -, -, -, -, -⟩ := idx_facts t
  show V c main_v10 (((cfg2.win 0).blk t).view.emb (ix2 p D)) = _
  refine congrArg (V c main_v10) ?_
  funext a; apply Fin.ext
  match a with
  | ⟨0, _⟩ => show win2_0.index t (0 : Fin 2) * 512 + 1 * p.val = win2_3.index t (0 : Fin 2) * 512 + p.val; omega
  | ⟨1, _⟩ => show win2_0.index t (1 : Fin 2) * 1024 + 1 * D.val = D.val; omega

/-- Every point's weight block is the whole weight array. -/
private theorem read_weights (c : Dev nD) (t : Fin cfg2.N) (D q : Fin 1024) :
    iblk2 V c 1 t (ix2 D q) = V c main_v5 (ix2 D q) := by
  obtain ⟨-, -, e, e', -, -, -⟩ := idx_facts t
  show V c main_v5 (((cfg2.win 1).blk t).view.emb (ix2 D q)) = _
  refine congrArg (V c main_v5) ?_
  funext a; apply Fin.ext
  match a with
  | ⟨0, _⟩ => show win2_1.index t (0 : Fin 2) * 1024 + 1 * D.val = D.val; omega
  | ⟨1, _⟩ => show win2_1.index t (1 : Fin 2) * 1024 + 1 * q.val = q.val; omega

/-- Every point's bias block is the whole bias. -/
private theorem read_bias (c : Dev nD) (t : Fin cfg2.N) (q : Fin 1024) :
    iblk2 V c 2 t (ix1 q) = V c main_arg8 (ix1 q) := by
  obtain ⟨-, -, -, -, e, -, -⟩ := idx_facts t
  show V c main_arg8 (((cfg2.win 2).blk t).view.emb (ix1 q)) = _
  refine congrArg (V c main_arg8) ?_
  funext a; apply Fin.ext
  match a with
  | ⟨0, _⟩ => show win2_2.index t (0 : Fin 1) * 1024 + 1 * q.val = q.val; omega

/-- WHAT POINT t WRITES BACK is block t of the projection: the body's one store fills the block with the payload of
    the three blocks it loads, and those are the rows 512·b … of the input, all the weights and all the bias. -/
private theorem flushed_eq (c : Dev nD) (t : Fin cfg2.N) :
    (dat2 (F := Ideal) V c).flushed 3 t = ((cfg2.win 3).blk t).view.read (Elt Ideal) (proj V c) := by
  show (cfg2.win 3).cut (grid2.coords t) ((dat2 (F := Ideal) V c).after 3 t) = _
  rw [after2_3]
  unfold out2_3
  rw [View.canon_unit_zero zeroPair]
  simp only [View.ld_unit_zero (S := S512x1024) zeroPair, View.ld_unit_zero (S := S1024x1024) zeroPair,
    View.ld_unit_zero (S := S1024) zeroOne]
  funext j
  obtain ⟨p, q, rfl⟩ : ∃ (p : Fin 512) (q : Fin 1024), j = ix2 p q := ⟨j 0, j 1, eq_ix2 j⟩
  show k2_pay1 (iblk2 V c 0 t) (iblk2 V c 1 t) (iblk2 V c 2 t) (ix2 p q)
    = proj V c (((cfg2.win 3).blk t).view.emb (ix2 p q))
  rw [pay_apply, emb_out]
  show _ = Cert.Mha.lin (fun r D => V c main_v10 (ix2 r D)) (fun D e => V c main_v5 (ix2 D e))
    (fun e => V c main_arg8 (ix1 e)) (blockRow t p) q
  unfold Cert.Mha.lin
  refine congrArg₂ (· + ·) (Finset.sum_congr rfl fun D _ => ?_) (read_bias V c t q)
  rw [read_rows, read_weights]

/-- Every block of rows is some point's. -/
private theorem idx_onto : ∀ b : Fin 8, ∃ t : Fin cfg2.N, win2_3.index t (0 : Fin 2) = b.val :=
  (by decide +kernel : ∀ b : Fin 8, ∃ t : Fin grid2.N, win2_3.index t (0 : Fin 2) = b.val)

/-- An index of the array is in point t's block iff each coordinate is in the block's range on its axis. -/
private theorem mem_blk (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v15).slice (win2_3.rect t)).set ↔ _
  rw [View.set_slice_whole, Rect.mem_set_unit]
  exact Iff.rfl

/-- THE COVER: row r lies in the block of the point whose block index is r / 512, so the blocks of rows tile the
    array. -/
private theorem cover (i : S4096x1024.Idx) :
    ∃ t : Fin cfg2.N, (cfg2.win 3).flush t = true ∧ i ∈ ((cfg2.win 3).blk t).view.set := by
  have hr : (i 0).val < 4096 := (i 0).isLt
  have hc : (i 1).val < 1024 := (i 1).isLt
  obtain ⟨t, ht⟩ := idx_onto ⟨(i 0).val / 512, by omega⟩
  have hb : win2_3.index t (0 : Fin 2) = (i 0).val / 512 := ht
  have hcol := (idx_facts t).2.2.2.2.2.1
  refine ⟨t, flush2_3 t, ?_⟩
  rw [mem_blk]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The output array after the region's run is the projection at every index: every point writes back its block of
    it, and the blocks cover the array. -/
private theorem arr_eq (c : Dev nD) : (dat2 (F := Ideal) V c).arrAt 3 cfg2.N = proj V c :=
  (dat2 (F := Ideal) V c).arrAt_eq_of_cover 3 (proj V c) (fun t _ => flushed_eq V c t) cover

/-- THE OUTPUT ARRAY AT (r, e): the projection of the input rows by the transposed weights, plus the bias. -/
theorem arr_apply (c : Dev nD) (r : Fin 4096) (e : Fin 1024) :
    (dat2 (F := Ideal) V c).arrAt 3 cfg2.N (ix2 r e)
      = Cert.Mha.lin (fun r D => V c main_v10 (ix2 r D)) (fun D e => V c main_v5 (ix2 D e))
          (fun e => V c main_arg8 (ix1 e)) r e := by
  exact congrFun (arr_eq V c) (ix2 r e)

end Cert.KernelIdeal.Lin2

end
-- ==== Proof.AttnHead.lean ====
/-
  One attention head on blocks: 256 query rows against 2048 key and value rows of 64 coordinates, then the head's
  64 rows of the transposed output weights.

  The scores are the products of query and key rows, scaled by 1/8; each row of scores is shifted by its maximum,
  exponentiated and divided by the sum of the exponentials; the head's output is the weights times the value
  rows, and its contribution to the output block that output times the weights' 64 rows. Changes of float format
  are the identity on the extended reals, and a product into a zero accumulator is the plain sum.
-/
import proofs.«400153_j670014898403_3_alg».proof.Proof.Gen.KernelIdeal
import proofs.«400153_j670014898403_3_alg».proof.Proof.LibDot
import proofs.«400153_j670014898403_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.AttnHead

open Cert.KernelIdeal Cert.KernelIdeal.Facts₀ Cert.KernelIdeal.Facts
open Idealize.ShloMosaic Idealize.ShloMosaic.ValueIdx

/-- The softmax weights of a head from its query and key blocks, operation by operation. -/
def probs (q : FVec Ideal S256x64 .bf16) (k : FVec Ideal S2048x64 .bf16) : FVec Ideal S256x2048 .f32 :=
  have s : FVec Ideal S256x2048 .f32 :=
    mulf (matmul dot_S256x64_S2048x64_S256x2048_1_1_0_0_n_n none q k (constant S256x2048 .f32 0x00000000#32))
      (broadcast S256x2048 (Scalar.ofBits .f32 0x3E000000#32))
  have p : FVec Ideal S256x2048 .f32 :=
    exp (subf s (broadcastTo S256x2048 (shapeCast S256x1
      (multiReduction .maximumf [1] S256 s 0xFF800000#32 reduces_S256x2048_S256 (.inl rfl) rfl) shapeCasts_S256_S256x1)
      broadcasts_S256x1_S256x2048))
  divf p (broadcastTo S256x2048 (shapeCast S256x1
    (multiReduction .add [1] S256 p 0x00000000#32 reduces_S256x2048_S256 (.inl rfl) rfl) shapeCasts_S256_S256x1)
    broadcasts_S256x1_S256x2048)

/-- A head's contribution to the 256 × 1024 output block: weights times value rows, times the head's rows of the
    transposed output weights. -/
def headTerm (q : FVec Ideal S256x64 .bf16) (k v : FVec Ideal S2048x64 .bf16) (w : FVec Ideal S64x1024 .bf16) :
    FVec Ideal S256x1024 .f32 :=
  matmul dot_S256x64_S64x1024_S256x1024_1_0_0_1_n_n none
    (truncf .bf16 (matmul dot_S256x2048_S2048x64_S256x64_1_0_0_1_n_n none (truncf .bf16 (probs q k) bitsLt_bf16_f32) v
      (constant S256x64 .f32 0x00000000#32)) bitsLt_bf16_f32)
    w (constant S256x1024 .f32 0x00000000#32)

/-- The row of scaled scores of query row p. -/
def scoreRow (q : FVec Ideal S256x64 .bf16) (k : FVec Ideal S2048x64 .bf16) (p : Fin 256) (j : Fin 2048) : EReal :=
  (∑ d : Fin 64, q (ix2 p d) * k (ix2 j d)) * Cert.Mha.eighth

/-! ## The product of query rows by key rows, read at an index

The scores' dimension numbers contract axis 1 of the queries with axis 1 of the keys: at (p, j) the left operand is
read at (p, c) and the right one at (j, c), c the contraction's one coordinate. -/

/-- The left operand's row coordinate is the output's row. -/
private theorem qk_lhs_0 (i : S256x2048.Idx) (c : dot_S256x64_S2048x64_S256x2048_1_1_0_0_n_n.contr.Idx) :
    (dot_S256x64_S2048x64_S256x2048_1_1_0_0_n_n.lhsIdx i c 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl

/-- The left operand's column coordinate is the contraction's coordinate. -/
private theorem qk_lhs_1 (i : S256x2048.Idx) (c : dot_S256x64_S2048x64_S256x2048_1_1_0_0_n_n.contr.Idx) :
    (dot_S256x64_S2048x64_S256x2048_1_1_0_0_n_n.lhsIdx i c 1).val = (c ⟨0, by decide⟩).val :=
  dot_S256x64_S2048x64_S256x2048_1_1_0_0_n_n.lhsIdx_val_of_single rfl i c

/-- The right operand's row coordinate is the output's column. -/
private theorem qk_rhs_0 (i : S256x2048.Idx) (c : dot_S256x64_S2048x64_S256x2048_1_1_0_0_n_n.contr.Idx) :
    (dot_S256x64_S2048x64_S256x2048_1_1_0_0_n_n.rhsIdx i c 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

/-- The right operand's column coordinate is the contraction's coordinate. -/
private theorem qk_rhs_1 (i : S256x2048.Idx) (c : dot_S256x64_S2048x64_S256x2048_1_1_0_0_n_n.contr.Idx) :
    (dot_S256x64_S2048x64_S256x2048_1_1_0_0_n_n.rhsIdx i c 1).val = (c ⟨0, by decide⟩).val :=
  dot_S256x64_S2048x64_S256x2048_1_1_0_0_n_n.rhsIdx_val_of_single rfl i c

/-- THE SCORES' PRODUCT AT (p, j): into the zero accumulator, Σ_d q (p, d) · k (j, d). -/
private theorem qk_apply (q : FVec Ideal S256x64 .bf16) (k : FVec Ideal S2048x64 .bf16) (p : Fin 256) (j : Fin 2048) :
    FloatOps.matmul dot_S256x64_S2048x64_S256x2048_1_1_0_0_n_n none q k (constant S256x2048 .f32 0x00000000#32) (ix2 p j)
      = ∑ d : Fin 64, q (ix2 p d) * k (ix2 j d) := by
  rw [Ideal.matmul_constant_zero_apply,
    ← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 p j)
      ((contrEquiv1 dot_S256x64_S2048x64_S256x2048_1_1_0_0_n_n 64 rfl rfl).symm d) = ix2 p d :=
    funext fun a => Fin.ext (by
      match a with
      | ⟨0, _⟩ => exact qk_lhs_0 _ _
      | ⟨1, _⟩ => exact (qk_lhs_1 _ _).trans hd)
  have er : dot_S256x64_S2048x64_S256x2048_1_1_0_0_n_n.rhsIdx (ix2 p j)
      ((contrEquiv1 dot_S256x64_S2048x64_S256x2048_1_1_0_0_n_n 64 rfl rfl).symm d) = ix2 j d :=
    funext fun a => Fin.ext (by
      match a with
      | ⟨0, _⟩ => exact qk_rhs_0 _ _
      | ⟨1, _⟩ => exact (qk_rhs_1 _ _).trans hd)
  rw [el, er]

/-! ## A column of row values spread over the row

A vector of 256 row values cast to a 256 × 1 column and broadcast to 256 × 2048 reads, at (p, j), the value of row p. -/

/-- The column cast: at (p, u) the vector at p. -/
private theorem column_apply {α : Type} (r : S256.Idx → α) (p : Fin 256) (u : Fin 1) :
    shapeCast S256x1 r shapeCasts_S256_S256x1 (ix2 p u) = r (ix1 p) :=
  shapeCast_apply r shapeCasts_S256_S256x1 _ _ (by
    have hu : u.val = 0 := by omega
    rw [Shape.rowMajor_val_one, Shape.rowMajor_val_two]
    show p.val = p.val * 1 + u.val
    rw [hu, Nat.mul_one, Nat.add_zero])

/-- The column broadcast over the row: at (p, j) the column at (p, 0). -/
private theorem spread_apply {α : Type} (c : S256x1.Idx → α) (p : Fin 256) (j : Fin 2048) :
    broadcastTo S256x2048 c broadcasts_S256x1_S256x2048 (ix2 p j) = c (ix2 p (0 : Fin 1)) := by
  refine broadcastTo_apply c broadcasts_S256x1_S256x2048 (ix2 p j) (ix2 p (0 : Fin 1)) fun ax => ?_
  match ax with
  | ⟨0, _⟩ => rfl
  | ⟨1, _⟩ => rfl

/-- Both together: at (p, j) the vector at p. -/
private theorem rowValue_apply {α : Type} (r : S256.Idx → α) (p : Fin 256) (j : Fin 2048) :
    broadcastTo S256x2048 (shapeCast S256x1 r shapeCasts_S256_S256x1) broadcasts_S256x1_S256x2048 (ix2 p j) = r (ix1 p) :=
  (spread_apply _ p j).trans (column_apply r p 0)

/-! ## The two reductions along a row -/

/-- Row p with column j put back is the index (p, j). -/
private theorem lift_row (p : Fin 256) (j : Fin 2048) :
    Shape.Reduces.lift (s := S256x2048) (a := 1) reduces_S256x2048_S256 (ix1 p) j = ix2 p j := by
  funext a
  refine Fin.ext ?_
  match a with
  | ⟨0, _⟩ => rfl
  | ⟨1, _⟩ => rfl

/-- THE ROW MAXIMUM AT p: the fold of max from the bottom element over row p. -/
private theorem rowMax_apply (s : FVec Ideal S256x2048 .f32) (p : Fin 256) :
    multiReduction (F := Ideal) .maximumf [1] S256 s 0xFF800000#32 reduces_S256x2048_S256 (.inl rfl) rfl (ix1 p)
      = Cert.Mha.rowMax fun j => s (ix2 p j) := by
  refine (Ideal.multiReduction_maximumf_single s _ reduces_S256x2048_S256 _ _ (ix1 p)).trans ?_
  show (Finset.univ : Finset (Fin 2048)).fold max (Ideal.ofBits .f32 0xFF800000#32)
      (fun j => s (Shape.Reduces.lift (s := S256x2048) (a := 1) reduces_S256x2048_S256 (ix1 p) j)) = _
  rw [show (fun j => s (Shape.Reduces.lift (s := S256x2048) (a := 1) reduces_S256x2048_S256 (ix1 p) j))
      = fun j => s (ix2 p j) from funext fun j => congrArg s (lift_row p j)]
  rfl

/-- THE ROW SUM AT p: the sum over row p. -/
private theorem rowSum_apply (s : FVec Ideal S256x2048 .f32) (p : Fin 256) :
    multiReduction (F := Ideal) .add [1] S256 s 0x00000000#32 reduces_S256x2048_S256 (.inl rfl) rfl (ix1 p)
      = ∑ j : Fin 2048, s (ix2 p j) := by
  refine (Ideal.multiReduction_add_single s _ reduces_S256x2048_S256 _ _ (ix1 p)).trans ?_
  show ∑ j : Fin 2048, s (Shape.Reduces.lift (s := S256x2048) (a := 1) reduces_S256x2048_S256 (ix1 p) j) = _
  exact Finset.sum_congr rfl fun j _ => congrArg s (lift_row p j)

/-! ## The three stages of the weights -/

/-- The scaled scores: the product of query rows by key rows, times 1/8. -/
private def scaled (q : FVec Ideal S256x64 .bf16) (k : FVec Ideal S2048x64 .bf16) : FVec Ideal S256x2048 .f32 :=
  mulf (matmul dot_S256x64_S2048x64_S256x2048_1_1_0_0_n_n none q k (constant S256x2048 .f32 0x00000000#32))
    (broadcast S256x2048 (Scalar.ofBits .f32 0x3E000000#32))

/-- A block of scores, each row shifted by its maximum and exponentiated. -/
private def shifted (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- A block, each row divided by its sum. -/
private def normed (e : FVec Ideal S256x2048 .f32) : FVec Ideal S256x2048 .f32 :=
  divf e (broadcastTo S256x2048 (shapeCast S256x1
    (multiReduction .add [1] S256 e 0x00000000#32 reduces_S256x2048_S256 (.inl rfl) rfl) shapeCasts_S256_S256x1)
    broadcasts_S256x1_S256x2048)

/-- The weights are the three stages in turn. -/
private theorem probs_eq (q : FVec Ideal S256x64 .bf16) (k : FVec Ideal S2048x64 .bf16) :
    probs q k = normed (shifted (scaled q k)) := rfl

/-- The scaled scores at (p, j): the score of row p against key row j. -/
private theorem scaled_apply (q : FVec Ideal S256x64 .bf16) (k : FVec Ideal S2048x64 .bf16) (p : Fin 256) (j : Fin 2048) :
    scaled q k (ix2 p j) = scoreRow q k p j := by
  show FloatOps.matmul dot_S256x64_S2048x64_S256x2048_1_1_0_0_n_n none q k (constant S256x2048 .f32 0x00000000#32) (ix2 p j)
      * Ideal.ofBits .f32 0x3E000000#32 = _
  rw [qk_apply]
  rfl

/-- The shifted exponentials at (p, j): the exponential of row p's score at j less the row's maximum. -/
private theorem shifted_apply (s : FVec Ideal S256x2048 .f32) (p : Fin 256) (j : Fin 2048) :
    shifted s (ix2 p j) = Cert.Mha.expo (fun j' => s (ix2 p j')) j := by
  show Ideal.exp (s (ix2 p j) - broadcastTo S256x2048 (shapeCast S256x1
      (multiReduction (F := Ideal) .maximumf [1] S256 s 0xFF800000#32 reduces_S256x2048_S256 (.inl rfl) rfl) shapeCasts_S256_S256x1)
      broadcasts_S256x1_S256x2048 (ix2 p j)) = _
  rw [rowValue_apply, rowMax_apply]
  rfl

/-- The normalized block at (p, j): the entry divided by row p's sum. -/
private theorem normed_apply (e : FVec Ideal S256x2048 .f32) (p : Fin 256) (j : Fin 2048) :
    normed e (ix2 p j) = Ideal.div (e (ix2 p j)) (∑ j' : Fin 2048, e (ix2 p j')) := by
  show Ideal.div (e (ix2 p j)) (broadcastTo S256x2048 (shapeCast S256x1
      (multiReduction (F := Ideal) .add [1] S256 e 0x00000000#32 reduces_S256x2048_S256 (.inl rfl) rfl) shapeCasts_S256_S256x1)
      broadcasts_S256x1_S256x2048 (ix2 p j)) = _
  rw [rowValue_apply, rowSum_apply]

/-- THE WEIGHTS AT (p, j): the softmax weight of column j of query row p's scores. -/
theorem probs_apply (q : FVec Ideal S256x64 .bf16) (k : FVec Ideal S2048x64 .bf16) (p : Fin 256) (j : Fin 2048) :
    probs q k (ix2 p j) = Cert.Mha.weight (scoreRow q k p) j := by
  rw [probs_eq, normed_apply]
  have hs : (fun j' => scaled q k (ix2 p j')) = scoreRow q k p := funext fun j' => scaled_apply q k p j'
  have he : ∀ j' : Fin 2048, shifted (scaled q k) (ix2 p j') = Cert.Mha.expo (scoreRow q k p) j' := fun j' => by
    rw [shifted_apply, hs]
  rw [he j, Finset.sum_congr rfl fun j' _ => he j']
  rfl

/-- THE HEAD'S CONTRIBUTION AT (p, e). -/
theorem headTerm_apply (q : FVec Ideal S256x64 .bf16) (k v : FVec Ideal S2048x64 .bf16) (w : FVec Ideal S64x1024 .bf16)
    (p : Fin 256) (e : Fin 1024) :
    headTerm q k v w (ix2 p e)
      = ∑ d : Fin 64, (∑ j : Fin 2048, Cert.Mha.weight (scoreRow q k p) j * v (ix2 j d)) * w (ix2 d e) := by
  unfold headTerm
  refine (Cert.LibDot.matmul_rows_apply dot_S256x64_S64x1024_S256x1024_1_0_0_1_n_n rfl rfl rfl rfl rfl rfl none _ w _ p e).trans ?_
  rw [show (constant (F := Ideal) S256x1024 .f32 0x00000000#32) (ix2 p e) = 0 from Ideal.ofBits_zero_f32, zero_add]
  refine Finset.sum_congr rfl fun d _ => ?_
  refine congrArg (· * w (ix2 d e)) ?_
  show FloatOps.matmul dot_S256x2048_S2048x64_S256x64_1_0_0_1_n_n none (truncf .bf16 (probs q k) bitsLt_bf16_f32) v
      (constant S256x64 .f32 0x00000000#32) (ix2 p d) = _
  refine (Cert.LibDot.matmul_rows_apply dot_S256x2048_S2048x64_S256x64_1_0_0_1_n_n rfl rfl rfl rfl rfl rfl none _ v _ p d).trans ?_
  rw [show (constant (F := Ideal) S256x64 .f32 0x00000000#32) (ix2 p d) = 0 from Ideal.ofBits_zero_f32, zero_add]
  refine Finset.sum_congr rfl fun j _ => ?_
  refine congrArg (· * v (ix2 j d)) ?_
  exact probs_apply q k p j

end Cert.KernelIdeal.AttnHead

end
-- ==== Proof.AttnBody.lean ====
/-
  The attention body's output block as sixteen heads added up, plus the bias.

  The body reads, for each head h, the 64 columns 64·h … 64·h + 63 of the staged query, key and value blocks and
  the 64 rows 64·h … 64·h + 63 of the staged transposed output weights, adds the heads' contributions in order
  onto a zero block, adds the bias broadcast down the rows, and stores the result whole.
-/
import proofs.«400153_j670014898403_3_alg».proof.Proof.Gen.KernelIdeal.Frame
import proofs.«400153_j670014898403_3_alg».proof.Proof.AttnHead
import proofs.«400153_j670014898403_3_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.AttnBody

open Cert.KernelIdeal Cert.KernelIdeal.Gen Cert.KernelIdeal.Facts₀ Cert.KernelIdeal.Facts
open Idealize.ShloMosaic Idealize.ShloMosaic.TcCoe Idealize.ShloMosaic.ValueIdx
open Cert.Mha (col)
open Cert.KernelIdeal.AttnHead (headTerm)

/-- Head h's 64 columns of a staged query block. -/
def qOf (x : Vec Ideal S1x256x1024 .bf16) (h : Fin 16) : FVec Ideal S256x64 .bf16 :=
  fun i => x (ix3 (0 : Fin 1) (i 0) (col h (i 1)))
/-- Head h's 64 columns of a staged key or value block. -/
def kvOf (x : Vec Ideal S1x2048x1024 .bf16) (h : Fin 16) : FVec Ideal S2048x64 .bf16 :=
  fun i => x (ix3 (0 : Fin 1) (i 0) (col h (i 1)))
/-- Head h's 64 rows of the staged transposed output weights. -/
def wOf (x : Vec Ideal S1024x1024 .bf16) (h : Fin 16) : FVec Ideal S64x1024 .bf16 :=
  fun i => x (ix2 (col h (i 0)) (i 1))

/-! ## A head's loaded pieces are its slices

Head h's query piece is the rectangle of extent 1 × 256 × 64 at offset (0, 0, 64·h); read at (i, d) after the leading
unit axis is dropped it is the block at (0, i, 64·h + d). The key and value pieces are the same with 2048 rows, and the
weight piece is the rectangle of extent 64 × 1024 at offset (64·h, 0), read at (d, e) as the block at (64·h + d, e). -/

private theorem inbQ (h : Fin 16) :
    ∀ a, (![0, 0, 64 * h.val] : Fin 3 → Nat) a + S1x256x64.size a ≤ S1x256x1024.size a := by
  intro a
  have := h.isLt
  match a with
  | ⟨0, _⟩ => show 0 + 1 ≤ 1; omega
  | ⟨1, _⟩ => show 0 + 256 ≤ 256; omega
  | ⟨2, _⟩ => show 64 * h.val + 64 ≤ 1024; omega

/-- The rectangle of head h's columns in a staged query block. -/
private def rq (h : Fin 16) : Rect S1x256x1024 :=
  Rect.unit (s := S1x256x1024) ![0, 0, 64 * h.val] S1x256x64.size (inbQ h)

private theorem q_piece (x : Vec Ideal S1x256x1024 .bf16) (h : Fin 16) :
    shapeCast (s := S1x256x64) S256x64 (View.ld x (rq h)) Gen.shapeCasts_S1x256x64_S256x64 = qOf x h := by
  funext i
  obtain ⟨a, b, rfl⟩ : ∃ (a : Fin 256) (b : Fin 64), i = ix2 a b := ⟨i 0, i 1, eq_ix2 i⟩
  refine (shapeCast_dropUnit_apply ![256, 64] (View.ld x (rq h)) Gen.shapeCasts_S1x256x64_S256x64 (ix2 a b)).trans ?_
  show x ((rq h).idx _) = x _
  refine congrArg x (funext fun c => Fin.ext ?_)
  match c with
  | ⟨0, _⟩ => rfl
  | ⟨1, _⟩ => show 0 + 1 * a.val = a.val; omega
  | ⟨2, _⟩ => show 64 * h.val + 1 * b.val = 64 * h.val + b.val; omega

private theorem inbKV (h : Fin 16) :
    ∀ a, (![0, 0, 64 * h.val] : Fin 3 → Nat) a + S1x2048x64.size a ≤ S1x2048x1024.size a := by
  intro a
  have := h.isLt
  match a with
  | ⟨0, _⟩ => show 0 + 1 ≤ 1; omega
  | ⟨1, _⟩ => show 0 + 2048 ≤ 2048; omega
  | ⟨2, _⟩ => show 64 * h.val + 64 ≤ 1024; omega

/-- The rectangle of head h's columns in a staged key or value block. -/
private def rkv (h : Fin 16) : Rect S1x2048x1024 :=
  Rect.unit (s := S1x2048x1024) ![0, 0, 64 * h.val] S1x2048x64.size (inbKV h)

private theorem kv_piece (x : Vec Ideal S1x2048x1024 .bf16) (h : Fin 16) :
    shapeCast (s := S1x2048x64) S2048x64 (View.ld x (rkv h)) Gen.shapeCasts_S1x2048x64_S2048x64 = kvOf x h := by
  funext i
  obtain ⟨a, b, rfl⟩ : ∃ (a : Fin 2048) (b : Fin 64), i = ix2 a b := ⟨i 0, i 1, eq_ix2 i⟩
  refine (shapeCast_dropUnit_apply ![2048, 64] (View.ld x (rkv h)) Gen.shapeCasts_S1x2048x64_S2048x64 (ix2 a b)).trans ?_
  show x ((rkv h).idx _) = x _
  refine congrArg x (funext fun c => Fin.ext ?_)
  match c with
  | ⟨0, _⟩ => rfl
  | ⟨1, _⟩ => show 0 + 1 * a.val = a.val; omega
  | ⟨2, _⟩ => show 64 * h.val + 1 * b.val = 64 * h.val + b.val; omega

private theorem inbW (h : Fin 16) :
    ∀ a, (![64 * h.val, 0] : Fin 2 → Nat) a + S64x1024.size a ≤ S1024x1024.size a := by
  intro a
  have := h.isLt
  match a with
  | ⟨0, _⟩ => show 64 * h.val + 64 ≤ 1024; omega
  | ⟨1, _⟩ => show 0 + 1024 ≤ 1024; omega

/-- The rectangle of head h's rows in the staged transposed output weights. -/
private def rwt (h : Fin 16) : Rect S1024x1024 :=
  Rect.unit (s := S1024x1024) ![64 * h.val, 0] S64x1024.size (inbW h)

private theorem w_piece (x : Vec Ideal S1024x1024 .bf16) (h : Fin 16) :
    shapeCast (s := S64x1024) S64x1024 (View.ld x (rwt h)) Gen.shapeCasts_S64x1024_S64x1024 = wOf x h := by
  funext i
  obtain ⟨a, b, rfl⟩ : ∃ (a : Fin 64) (b : Fin 1024), i = ix2 a b := ⟨i 0, i 1, eq_ix2 i⟩
  refine (congrFun (shapeCast_self (s := S64x1024) (View.ld x (rwt h)) Gen.shapeCasts_S64x1024_S64x1024) (ix2 a b)).trans ?_
  show x ((rwt h).idx _) = x _
  refine congrArg x (funext fun c => Fin.ext ?_)
  match c with
  | ⟨0, _⟩ => show 64 * h.val + 1 * a.val = 64 * h.val + a.val; omega
  | ⟨1, _⟩ => show 0 + 1 * b.val = b.val; omega

/-! ## Sixteen blocks added in order onto the zero block -/

/-- The sixteen blocks added in order onto the zero block. -/
private def headSum (T : Fin 16 → FVec Ideal S256x1024 .f32) : FVec Ideal S256x1024 .f32 :=
  (addf (addf (addf (addf (addf (addf (addf (addf (addf (addf (addf (addf (addf (addf (addf (addf (broadcast S256x1024 (Scalar.ofBits .f32 0x00000000#32)) (T 0)) (T 1)) (T 2)) (T 3)) (T 4)) (T 5)) (T 6)) (T 7)) (T 8)) (T 9)) (T 10)) (T 11)) (T 12)) (T 13)) (T 14)) (T 15))

/-- At an index the accumulated block is the sum of the sixteen blocks there: the zero block reads 0, and the additions
    associate to the left as the finite sum taken last index last does. -/
private theorem headSum_apply (T : Fin 16 → FVec Ideal S256x1024 .f32) (i : S256x1024.Idx) :
    headSum T i = ∑ h : Fin 16, T h i := by
  have z : (broadcast S256x1024 (Scalar.ofBits (F := Ideal) .f32 0x00000000#32)) i = (0 : EReal) :=
    Ideal.ofBits_zero_f32
  unfold headSum
  simp only [addf_apply, z, Fin.sum_univ_castSucc, Fin.sum_univ_zero]
  rfl

/-- The bias broadcast down the rows reads, at (p, e), the bias at e. -/
private theorem bias_apply (b : Vec Ideal S1024 .f32) (p : Fin 256) (e : Fin 1024) :
    broadcastTo S256x1024 (shapeCast S1x1024 b Gen.shapeCasts_S1024_S1x1024) Gen.broadcasts_S1x1024_S256x1024 (ix2 p e)
      = b (ix1 e) := by
  refine (broadcastTo_apply _ Gen.broadcasts_S1x1024_S256x1024 (ix2 p e) (ix2 (0 : Fin 1) e) ?_).trans ?_
  · intro a
    match a with
    | ⟨0, _⟩ => rfl
    | ⟨1, _⟩ => rfl
  · refine shapeCast_apply b Gen.shapeCasts_S1024_S1x1024 (ix2 (0 : Fin 1) e) (ix1 e) ?_
    rw [Shape.rowMajor_val_one, Shape.rowMajor_val_two]
    show e.val = 0 * 1024 + e.val
    omega

/-! ## The body's operations are the sixteen head terms, added up, plus the bias

The body's operation sequence, whatever pieces it loads, is operation for operation: each head's piece casts, its
softmax weights, its two products; the running sum of the heads' blocks from the zero block; the bias added; the
leading unit axis restored. Both sides unfold to the same tree of operations. -/

set_option maxHeartbeats 4000000 in
private theorem body_eq (A : Fin 16 → Vec Ideal S1x256x64 .bf16) (B C : Fin 16 → Vec Ideal S1x2048x64 .bf16)
    (W : Fin 16 → Vec Ideal S64x1024 .bf16) (b : Vec Ideal S1024 .f32) :
    k3_pay1 (k3_pay28 (k3_pay26 (k3_pay23 (k3_pay20 (k3_pay17 (k3_pay14 (k3_pay13 (k3_pay10 (k3_pay8 (k3_pay5 (k3_pay2 (A 0) (B 0) (C 0) (W 0)) (k3_pay3 (A 1)) (k3_pay4 (B 1)) (C 1) (W 1)) (k3_pay6 (C 2)) (k3_pay7 (A 2) (B 2)) (W 2) (A 3) (B 3) (C 3) (W 3)) (k3_pay9 (A 4)) (B 4) (C 4) (W 4)) (k3_pay11 (C 5)) (k3_pay12 (A 5) (B 5)) (W 5) (A 6) (B 6) (C 6) (W 6)) (A 7) (B 7) (C 7) (W 7)) (k3_pay15 (C 8)) (k3_pay16 (A 8) (B 8)) (W 8)) (k3_pay18 (A 9) (B 9) (C 9)) (k3_pay19 (W 9)) (A 10) (B 10) (C 10) (W 10)) (k3_pay21 (A 11)) (k3_pay22 (B 11)) (C 11) (W 11)) (k3_pay24 (C 12)) (k3_pay25 (A 12) (B 12)) (W 12) (A 13) (B 13) (C 13) (W 13)) (k3_pay27 (A 14)) (B 14) (C 14) (W 14)) (k3_pay29 (C 15)) (k3_pay30 (A 15) (B 15)) (W 15) b
      = shapeCast S1x256x1024
          (addf (headSum fun h => headTerm (shapeCast S256x64 (A h) Gen.shapeCasts_S1x256x64_S256x64)
                    (shapeCast S2048x64 (B h) Gen.shapeCasts_S1x2048x64_S2048x64)
                    (shapeCast S2048x64 (C h) Gen.shapeCasts_S1x2048x64_S2048x64)
                    (shapeCast S64x1024 (W h) Gen.shapeCasts_S64x1024_S64x1024))
            (broadcastTo S256x1024 (shapeCast S1x1024 b Gen.shapeCasts_S1024_S1x1024) Gen.broadcasts_S1x1024_S256x1024))
          Gen.shapeCasts_S256x1024_S1x256x1024 := rfl

/-- THE OUTPUT BLOCK AT (0, p, e): the sixteen heads' contributions summed, plus the bias. -/
theorem out_apply (x0 : Vec Ideal S1x256x1024 .bf16) (x1 x2 : Vec Ideal S1x2048x1024 .bf16)
    (x3 : Vec Ideal S1024x1024 .bf16) (x4 : Vec Ideal S1024 .f32) (p : Fin 256) (e : Fin 1024) :
    out3_5 (F := Ideal) x0 x1 x2 x3 x4 (ix3 (0 : Fin 1) p e)
      = (∑ h : Fin 16, headTerm (qOf x0 h) (kvOf x1 h) (kvOf x2 h) (wOf x3 h) (ix2 p e)) + x4 (ix1 e) := by
  have hz : (![0, 0, 0] : Fin 3 → Nat) = fun _ => 0 := by
    funext a
    match a with
    | ⟨0, _⟩ => rfl
    | ⟨1, _⟩ => rfl
    | ⟨2, _⟩ => rfl
  have hz1 : (![0] : Fin 1 → Nat) = fun _ => 0 := by
    funext a
    match a with
    | ⟨0, _⟩ => rfl
  have hb : View.ld x4 r3_48 = x4 := View.ld_unit_zero hz1 _ x4
  unfold out3_5
  -- the one store covers the whole block, so the block is the store's payload
  refine (congrFun (View.canon_unit_zero hz _ _) _).trans ?_
  -- the payload is the sixteen head terms of the loaded pieces added up, plus the bias, under a leading unit axis
  refine (congrFun (body_eq (fun h => View.ld x0 (rq h)) (fun h => View.ld x1 (rkv h)) (fun h => View.ld x2 (rkv h))
    (fun h => View.ld x3 (rwt h)) (View.ld x4 r3_48)) _).trans ?_
  -- the bias is loaded whole
  rw [hb]
  -- (0, p, e) under the leading unit axis is (p, e)
  refine (shapeCast_apply _ Gen.shapeCasts_S256x1024_S1x256x1024 (ix3 (0 : Fin 1) p e) (ix2 p e) ?_).trans ?_
  · rw [Shape.rowMajor_val_two, Shape.rowMajor_val_three]
    show p.val * 1024 + e.val = (0 * 256 + p.val) * 1024 + e.val
    omega
  · rw [addf_apply, headSum_apply, bias_apply]
    -- head by head, the loaded pieces are the head's slices
    refine congrArg (· + x4 (ix1 e)) (Finset.sum_congr rfl fun h _ => ?_)
    rw [q_piece, kv_piece, kv_piece, w_piece]

end Cert.KernelIdeal.AttnBody

end
-- ==== Proof.AttnRegion.lean ====
/-
  The attention region's output array after its run.

  The grid is 2 × 8: point (β, i) takes query rows 256·i … 256·i + 255 of batch entry β, all 2048 key and value rows
  of that entry, the whole transposed output weights and bias, and writes back the same 256 rows of the output. At
  (β, t, e) the output holds attention over batch entry β of the arrays as the region finds them.
-/
import proofs.«400153_j670014898403_3_alg».proof.Proof.Gen.KernelIdeal.Frame
import proofs.«400153_j670014898403_3_alg».proof.Proof.AttnHead
import proofs.«400153_j670014898403_3_alg».proof.Proof.AttnBody
import proofs.«400153_j670014898403_3_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.AttnRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·i + p of the 2048 rows: row p of the i-th group of 256. -/
private def rowOf (i : Fin 8) (p : Fin 256) : Fin 2048 := ⟨256 * i.val + p.val, by omega⟩

/-- The block equation: a block computed from staged blocks that hold rows 256·i … of Q, all of K and V, the
    weights and the bias is attention at row 256·i + p. Both sides are the same sums term by term. -/
private theorem block_eq (Q K Vv : Fin 2048 → Fin 1024 → EReal) (W : Fin 1024 → Fin 1024 → EReal) (b : Fin 1024 → EReal)
    (x0 : Vec Ideal S1x256x1024 .bf16) (x1 x2 : Vec Ideal S1x2048x1024 .bf16) (x3 : Vec Ideal S1024x1024 .bf16)
    (x4 : Vec Ideal S1024 .f32) (i : Fin 8)
    (h0 : ∀ (p : Fin 256) (D : Fin 1024), x0 (ix3 (0 : Fin 1) p D) = Q (rowOf i p) D)
    (h1 : ∀ (j : Fin 2048) (D : Fin 1024), x1 (ix3 (0 : Fin 1) j D) = K j D)
    (h2 : ∀ (j : Fin 2048) (D : Fin 1024), x2 (ix3 (0 : Fin 1) j D) = Vv j D)
    (h3 : ∀ (D e : Fin 1024), x3 (ix2 D e) = W D e)
    (h4 : ∀ e : Fin 1024, x4 (ix1 e) = b e) (p : Fin 256) (e : Fin 1024) :
    out3_5 (F := Ideal) x0 x1 x2 x3 x4 (ix3 (0 : Fin 1) p e) = Cert.Mha.attn Q K Vv W b (rowOf i p) e := by
  rw [AttnBody.out_apply]
  unfold Cert.Mha.attn
  rw [h4]
  refine congrArg (· + b e) ?_
  refine Finset.sum_congr rfl fun h _ => ?_
  rw [AttnHead.headTerm_apply]
  unfold Cert.Mha.headProj
  refine Finset.sum_congr rfl fun d _ => ?_
  unfold Cert.Mha.headOut
  have hs : AttnHead.scoreRow (AttnBody.qOf x0 h) (AttnBody.kvOf x1 h) p = Cert.Mha.score Q K h (rowOf i p) := by
    funext j
    unfold AttnHead.scoreRow Cert.Mha.score
    refine congrArg (· * Cert.Mha.eighth) ?_
    refine Finset.sum_congr rfl fun d' _ => ?_
    show x0 (ix3 (0 : Fin 1) p (Cert.Mha.col h d')) * x1 (ix3 (0 : Fin 1) j (Cert.Mha.col h d')) = _
    rw [h0, h1]
  rw [hs]
  have hv : ∀ j : Fin 2048, AttnBody.kvOf x2 h (ix2 j d) = Vv j (Cert.Mha.col h d) := fun j => h2 j _
  have hw : AttnBody.wOf x3 h (ix2 d e) = W (Cert.Mha.col h d) e := h3 _ _
  rw [hw]
  refine congrArg (· * W (Cert.Mha.col h d) e) ?_
  refine Finset.sum_congr rfl fun j _ => ?_
  rw [hv]

/-- The index maps over the sixteen grid points: point t has coordinates (β, i); the query and output windows sit at
    block (β, i, 0), the key and value windows at (β, 0, 0), the weights and bias at the origin. -/
private theorem idx_facts : ∀ t : Fin cfg3.N, ∃ (β : Fin 2) (i : Fin 8),
    win3_0.index t = ![β.val, i.val, 0] ∧ win3_1.index t = ![β.val, 0, 0] ∧ win3_2.index t = ![β.val, 0, 0]
    ∧ win3_3.index t = ![0, 0] ∧ win3_4.index t = ![0] ∧ win3_5.index t = ![β.val, i.val, 0] :=
  (by decide +kernel : ∀ t : Fin grid3.N, _)

/-- Every block (β, i, 0) of the output is some point's. -/
private theorem idx_onto : ∀ (β : Fin 2) (i : Fin 8), ∃ t : Fin cfg3.N, win3_5.index t = ![β.val, i.val, 0] :=
  (by decide +kernel : ∀ (β : Fin 2) (i : Fin 8), ∃ t : Fin grid3.N, win3_5.index t = ![β.val, i.val, 0])

/-- The staged query block at (0, p, D) is the query array at (β, 256·i + p, D): the block starts at row 256·i of
    batch entry β. -/
private theorem read0 (c : Dev nD) (t : Fin cfg3.N) (β : Fin 2) (i : Fin 8) (h : win3_0.index t = ![β.val, i.val, 0])
    (p : Fin 256) (D : Fin 1024) :
    iblk3 (F := Ideal) V c 0 t (ix3 (0 : Fin 1) p D) = V c main_v12 (ix3 β (rowOf i p) D) := by
  unfold iblk3
  rw [View.read_apply]
  refine congrArg (V c main_v12) ?_
  funext a; apply Fin.ext
  match a with
  | ⟨0, _⟩ => show win3_0.index t (0 : Fin 3) * 1 + 1 * 0 = β.val; rw [h]; show β.val * 1 + 1 * 0 = β.val; omega
  | ⟨1, _⟩ => show win3_0.index t (1 : Fin 3) * 256 + 1 * p.val = 256 * i.val + p.val; rw [h]; show i.val * 256 + 1 * p.val = 256 * i.val + p.val; omega
  | ⟨2, _⟩ => show win3_0.index t (2 : Fin 3) * 1024 + 1 * D.val = D.val; rw [h]; show 0 * 1024 + 1 * D.val = D.val; omega

/-- The staged key block at (0, j, D) is the key array at (β, j, D): the block is the whole of batch entry β. -/
private theorem read1 (c : Dev nD) (t : Fin cfg3.N) (β : Fin 2) (h : win3_1.index t = ![β.val, 0, 0])
    (j : Fin 2048) (D : Fin 1024) :
    iblk3 (F := Ideal) V c 1 t (ix3 (0 : Fin 1) j D) = V c main_v14 (ix3 β j D) := by
  unfold iblk3
  rw [View.read_apply]
  refine congrArg (V c main_v14) ?_
  funext a; apply Fin.ext
  match a with
  | ⟨0, _⟩ => show win3_1.index t (0 : Fin 3) * 1 + 1 * 0 = β.val; rw [h]; show β.val * 1 + 1 * 0 = β.val; omega
  | ⟨1, _⟩ => show win3_1.index t (1 : Fin 3) * 2048 + 1 * j.val = j.val; rw [h]; show 0 * 2048 + 1 * j.val = j.val; omega
  | ⟨2, _⟩ => show win3_1.index t (2 : Fin 3) * 1024 + 1 * D.val = D.val; rw [h]; show 0 * 1024 + 1 * D.val = D.val; omega

/-- The staged value block at (0, j, D) is the value array at (β, j, D): the block is the whole of batch entry β. -/
private theorem read2 (c : Dev nD) (t : Fin cfg3.N) (β : Fin 2) (h : win3_2.index t = ![β.val, 0, 0])
    (j : Fin 2048) (D : Fin 1024) :
    iblk3 (F := Ideal) V c 2 t (ix3 (0 : Fin 1) j D) = V c main_v16 (ix3 β j D) := by
  unfold iblk3
  rw [View.read_apply]
  refine congrArg (V c main_v16) ?_
  funext a; apply Fin.ext
  match a with
  | ⟨0, _⟩ => show win3_2.index t (0 : Fin 3) * 1 + 1 * 0 = β.val; rw [h]; show β.val * 1 + 1 * 0 = β.val; omega
  | ⟨1, _⟩ => show win3_2.index t (1 : Fin 3) * 2048 + 1 * j.val = j.val; rw [h]; show 0 * 2048 + 1 * j.val = j.val; omega
  | ⟨2, _⟩ => show win3_2.index t (2 : Fin 3) * 1024 + 1 * D.val = D.val; rw [h]; show 0 * 1024 + 1 * D.val = D.val; omega

/-- The staged weights are the whole weight array: the block starts at the origin and has the array's extents. -/
private theorem read3 (c : Dev nD) (t : Fin cfg3.N) (h : win3_3.index t = ![0, 0]) (D e : Fin 1024) :
    iblk3 (F := Ideal) V c 3 t (ix2 D e) = V c main_v7 (ix2 D e) := by
  unfold iblk3
  rw [View.read_apply]
  refine congrArg (V c main_v7) ?_
  funext a; apply Fin.ext
  match a with
  | ⟨0, _⟩ => show win3_3.index t (0 : Fin 2) * 1024 + 1 * D.val = D.val; rw [h]; show 0 * 1024 + 1 * D.val = D.val; omega
  | ⟨1, _⟩ => show win3_3.index t (1 : Fin 2) * 1024 + 1 * e.val = e.val; rw [h]; show 0 * 1024 + 1 * e.val = e.val; omega

/-- The staged bias is the whole bias array. -/
private theorem read4 (c : Dev nD) (t : Fin cfg3.N) (h : win3_4.index t = ![0]) (e : Fin 1024) :
    iblk3 (F := Ideal) V c 4 t (ix1 e) = V c main_arg10 (ix1 e) := by
  unfold iblk3
  rw [View.read_apply]
  refine congrArg (V c main_arg10) ?_
  funext a; apply Fin.ext
  match a with
  | ⟨0, _⟩ => show win3_4.index t (0 : Fin 1) * 1024 + 1 * e.val = e.val; rw [h]; show 0 * 1024 + 1 * e.val = e.val; omega

/-- The whole output array as one function of its index (β, t, e): attention over batch entry β of the arrays as the
    region finds them, at row t and column e. -/
private def G (c : Dev nD) : S2x2048x1024.Idx → EReal := fun i =>
  Cert.Mha.attn (fun t D => V c main_v12 (ix3 (i 0 : Fin 2) t D)) (fun t D => V c main_v14 (ix3 (i 0 : Fin 2) t D))
    (fun t D => V c main_v16 (ix3 (i 0 : Fin 2) t D)) (fun D e => V c main_v7 (ix2 D e)) (fun e => V c main_arg10 (ix1 e))
    (i 1 : Fin 2048) (i 2 : Fin 1024)

/-- What point t writes back is block t of G: the point (β, i) writes rows 256·i … of batch entry β, and the body's
    block at (0, p, e) is attention at row 256·i + p by the block equation. -/
private theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  obtain ⟨β, i, e0, e1, e2, e3, e4, e5⟩ := idx_facts t
  refine funext fun (j : S1x256x1024.Idx) => ?_
  obtain ⟨z, p, e, rfl⟩ : ∃ (z : Fin 1) (p : Fin 256) (e : Fin 1024), j = ix3 z p e := ⟨j 0, j 1, j 2, eq_ix3 j⟩
  obtain rfl : z = 0 := Subsingleton.elim _ _
  rw [View.read_apply]
  have hemb : ((cfg3.win 5).blk t).view.emb (ix3 (0 : Fin 1) p e) = ix3 β (rowOf i p) e := by
    funext a; apply Fin.ext
    match a with
    | ⟨0, _⟩ => show win3_5.index t (0 : Fin 3) * 1 + 1 * 0 = β.val; rw [e5]; show β.val * 1 + 1 * 0 = β.val; omega
    | ⟨1, _⟩ => show win3_5.index t (1 : Fin 3) * 256 + 1 * p.val = 256 * i.val + p.val; rw [e5]; show i.val * 256 + 1 * p.val = 256 * i.val + p.val; omega
    | ⟨2, _⟩ => show win3_5.index t (2 : Fin 3) * 1024 + 1 * e.val = e.val; rw [e5]; show 0 * 1024 + 1 * e.val = e.val; omega
  rw [hemb]
  exact block_eq (fun t D => V c main_v12 (ix3 β t D)) (fun t D => V c main_v14 (ix3 β t D))
    (fun t D => V c main_v16 (ix3 β t D)) (fun D e => V c main_v7 (ix2 D e)) (fun e => V c main_arg10 (ix1 e))
    (iblk3 V c 0 t) (iblk3 V c 1 t) (iblk3 V c 2 t) (iblk3 V c 3 t) (iblk3 V c 4 t) i
    (read0 V c t β i e0) (read1 V c t β e1) (read2 V c t β e2) (read3 V c t e3) (read4 V c t e4) p e

/-- An index of the array is in point t's block iff each coordinate is in the block's range on its axis. -/
private theorem mem_blk (t : Fin cfg3.N) (i : S2x2048x1024.Idx) :
    i ∈ ((cfg3.win 5).blk t).view.set ↔ ∀ a : Fin 3, win3_5.index t a * S1x256x1024.size a ≤ (i a).val ∧ (i a).val < win3_5.index t a * S1x256x1024.size a + S1x256x1024.size a := by
  show i ∈ ((View.whole main_v17).slice (win3_5.rect t)).set ↔ _
  rw [View.set_slice_whole, Rect.mem_set_unit]
  exact Iff.rfl

/-- Every index (β, t, e) lies in the block of the point with coordinates (β, t / 256). -/
private theorem cover (i : S2x2048x1024.Idx) :
    ∃ t : Fin cfg3.N, (cfg3.win 5).flush t = true ∧ i ∈ ((cfg3.win 5).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win3_5.index t (0 : Fin 3) = (i 0).val := congrFun ht 0
  have q1 : win3_5.index t (1 : Fin 3) = (i 1).val / 256 := congrFun ht 1
  have q2 : win3_5.index t (2 : Fin 3) = 0 := congrFun ht 2
  refine ⟨t, flush3_5 t, ?_⟩
  rw [mem_blk]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 256 ≤ (i 1).val ∧ (i 1).val < win3_5.index t (1 : Fin 3) * 256 + 256; omega
  | ⟨2, _⟩ => show win3_5.index t (2 : Fin 3) * 1024 ≤ (i 2).val ∧ (i 2).val < win3_5.index t (2 : Fin 3) * 1024 + 1024; omega

/-- THE OUTPUT ARRAY AT (β, t, e). -/
theorem arr_apply (c : Dev nD) (β : Fin 2) (t : Fin 2048) (e : Fin 1024) :
    (dat3 (F := Ideal) V c).arrAt 5 cfg3.N (ix3 β t e)
      = Cert.Mha.attn (fun t D => V c main_v12 (ix3 β t D)) (fun t D => V c main_v14 (ix3 β t D))
          (fun t D => V c main_v16 (ix3 β t D)) (fun D e => V c main_v7 (ix2 D e)) (fun e => V c main_arg10 (ix1 e)) t e := by
  have hG : (dat3 (F := Ideal) V c).arrAt 5 cfg3.N = G V c :=
    (dat3 (F := Ideal) V c).arrAt_eq_of_cover 5 (G V c) (fun t _ => flushed_eq V c t) cover
  exact congrFun hG (ix3 β t e)

end Cert.KernelIdeal.AttnRegion

end
-- ==== Proof.HostChain.lean ====
/-
  The buffers each region finds, read back through @main's host operations to the launch memory.

  Before the first region the host transposes each weight matrix (the change of format is the identity on the
  extended reals) and flattens each input to 4096 rows; after each projection it folds the 4096 rows back to
  2 × 2048. A region changes only its own arrays, a host operation only the buffer it writes, so every buffer a
  region reads is either one of those operations of an argument or an earlier region's output array.
-/
import proofs.«400153_j670014898403_3_alg».proof.Proof.Gen.KernelIdeal.Frame
import proofs.«400153_j670014898403_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.HostChain

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.Mha (row)

variable (m : (ℓ : Loc nD τ sig) → Buf (Elt Ideal) ℓ) (ρ : Dev nD → PrngReg)

/-! ## What a host stretch leaves alone

A host operation rewrites the one buffer it writes; a stretch of them leaves every buffer outside the list of
those it writes as it found it. -/

/-- The first stretch writes the four transposes, the four changes of format and the three flattened inputs. -/
private theorem host0_keeps (V : Valuation τ sig (Elt Ideal)) {r : Ref sig .tc}
    (hr : r ∉ ([main_v0, main_v1, main_v2, main_v3, main_v4, main_v5, main_v6, main_v7, main_v8, main_v9,
      main_v10] : List (Ref sig .tc))) :
    StableHlo.after hostOps0 V (Proc.devRef .tc r) = V (Proc.devRef .tc r) :=
  StableHlo.after_of_writes_sub hostOps0 V (by
    simp only [hostOps0, List.Forall, StableHlo.unary_writes, StableHlo.reshape_writes]
    repeat' apply And.intro
    all_goals exact Finset.singleton_subset_iff.mpr (List.mem_toFinset.mpr (List.mem_map.mpr ⟨_, by decide, rfl⟩))) hr

/-- The second stretch writes the first projection's output folded back. -/
private theorem host1_keeps (V : Valuation τ sig (Elt Ideal)) {r : Ref sig .tc} (hr : r ∉ ([main_v12] : List (Ref sig .tc))) :
    StableHlo.after hostOps1 V (Proc.devRef .tc r) = V (Proc.devRef .tc r) :=
  StableHlo.after_of_writes_sub hostOps1 V (by
    simp only [hostOps1, List.Forall, StableHlo.reshape_writes]
    exact Finset.singleton_subset_iff.mpr (List.mem_toFinset.mpr (List.mem_map.mpr ⟨_, by decide, rfl⟩))) hr

/-- The third stretch writes the second projection's output folded back. -/
private theorem host2_keeps (V : Valuation τ sig (Elt Ideal)) {r : Ref sig .tc} (hr : r ∉ ([main_v14] : List (Ref sig .tc))) :
    StableHlo.after hostOps2 V (Proc.devRef .tc r) = V (Proc.devRef .tc r) :=
  StableHlo.after_of_writes_sub hostOps2 V (by
    simp only [hostOps2, List.Forall, StableHlo.reshape_writes]
    exact Finset.singleton_subset_iff.mpr (List.mem_toFinset.mpr (List.mem_map.mpr ⟨_, by decide, rfl⟩))) hr

/-- The fourth stretch writes the third projection's output folded back. -/
private theorem host3_keeps (V : Valuation τ sig (Elt Ideal)) {r : Ref sig .tc} (hr : r ∉ ([main_v16] : List (Ref sig .tc))) :
    StableHlo.after hostOps3 V (Proc.devRef .tc r) = V (Proc.devRef .tc r) :=
  StableHlo.after_of_writes_sub hostOps3 V (by
    simp only [hostOps3, List.Forall, StableHlo.reshape_writes]
    exact Finset.singleton_subset_iff.mpr (List.mem_toFinset.mpr (List.mem_map.mpr ⟨_, by decide, rfl⟩))) hr

/-! ## The host operations read at an index -/

/-- The 2 × 2048 rows flattened to 4096: row 2048·β + t is row t of batch entry β (equal row-major positions). -/
private theorem flatten_apply {α : Type} (x : S2x2048x1024.Idx → α) (β : Fin 2) (t : Fin 2048) (D : Fin 1024) :
    shapeCast S4096x1024 x shapeCasts_S2x2048x1024_S4096x1024 (ix2 (row β t) D) = x (ix3 β t D) := by
  refine shapeCast_apply _ _ _ (ix3 β t D) ?_
  rw [Shape.rowMajor_val_three, Shape.rowMajor_val_two]
  show (β.val * 2048 + t.val) * 1024 + D.val = (2048 * β.val + t.val) * 1024 + D.val
  omega

/-- The 4096 rows folded back to 2 × 2048: row t of batch entry β is row 2048·β + t (equal row-major positions). -/
private theorem fold_apply {α : Type} (x : S4096x1024.Idx → α) (β : Fin 2) (t : Fin 2048) (D : Fin 1024) :
    shapeCast S2x2048x1024 x shapeCasts_S4096x1024_S2x2048x1024 (ix3 β t D) = x (ix2 (row β t) D) := by
  refine shapeCast_apply _ _ _ (ix2 (row β t) D) ?_
  rw [Shape.rowMajor_val_three, Shape.rowMajor_val_two]
  show (2048 * β.val + t.val) * 1024 + D.val = (β.val * 2048 + t.val) * 1024 + D.val
  omega

/-- A transposed square matrix: entry (D, e) is the operand's entry (e, D). -/
private theorem swap_apply {α : Type} (x : S1024x1024.Idx → α) (D e : Fin 1024) :
    transpose S1024x1024 [1, 0] x transposes_S1024x1024_S1024x1024_1_0 (ix2 D e) = x (ix2 e D) := by
  refine transpose_apply _ _ _ (ix2 D e) (ix2 e D) ?_
  intro b
  match b with
  | ⟨0, _⟩ => rfl
  | ⟨1, _⟩ => rfl

/-! ## The first stretch's results: each flattened input and each transposed weight, read at an index.
    The change of format after a transpose is the identity on the extended reals. -/

private theorem first_v8 (c : Dev nD) (β : Fin 2) (t : Fin 2048) (D : Fin 1024) :
    W1 m ρ c (Proc.devRef .tc main_v8) (ix2 (row β t) D) = m ((c : Thread nD τ).loc main_arg0) (ix3 β t D) := by
  show StableHlo.after hostOps0 (W0 m ρ c) (Proc.devRef .tc main_v8) (ix2 (row β t) D) = _
  dsimp only [hostOps0]
  after_results
  exact flatten_apply (m ((c : Thread nD τ).loc main_arg0)) β t D

private theorem first_v9 (c : Dev nD) (β : Fin 2) (t : Fin 2048) (D : Fin 1024) :
    W1 m ρ c (Proc.devRef .tc main_v9) (ix2 (row β t) D) = m ((c : Thread nD τ).loc main_arg1) (ix3 β t D) := by
  show StableHlo.after hostOps0 (W0 m ρ c) (Proc.devRef .tc main_v9) (ix2 (row β t) D) = _
  dsimp only [hostOps0]
  after_results
  exact flatten_apply (m ((c : Thread nD τ).loc main_arg1)) β t D

private theorem first_v10 (c : Dev nD) (β : Fin 2) (t : Fin 2048) (D : Fin 1024) :
    W1 m ρ c (Proc.devRef .tc main_v10) (ix2 (row β t) D) = m ((c : Thread nD τ).loc main_arg2) (ix3 β t D) := by
  show StableHlo.after hostOps0 (W0 m ρ c) (Proc.devRef .tc main_v10) (ix2 (row β t) D) = _
  dsimp only [hostOps0]
  after_results
  exact flatten_apply (m ((c : Thread nD τ).loc main_arg2)) β t D

private theorem first_v1 (c : Dev nD) (D e : Fin 1024) :
    W1 m ρ c (Proc.devRef .tc main_v1) (ix2 D e) = m ((c : Thread nD τ).loc main_arg3) (ix2 e D) := by
  show StableHlo.after hostOps0 (W0 m ρ c) (Proc.devRef .tc main_v1) (ix2 D e) = _
  dsimp only [hostOps0]
  after_results
  exact swap_apply (m ((c : Thread nD τ).loc main_arg3)) D e

private theorem first_v3 (c : Dev nD) (D e : Fin 1024) :
    W1 m ρ c (Proc.devRef .tc main_v3) (ix2 D e) = m ((c : Thread nD τ).loc main_arg5) (ix2 e D) := by
  show StableHlo.after hostOps0 (W0 m ρ c) (Proc.devRef .tc main_v3) (ix2 D e) = _
  dsimp only [hostOps0]
  after_results
  exact swap_apply (m ((c : Thread nD τ).loc main_arg5)) D e

private theorem first_v5 (c : Dev nD) (D e : Fin 1024) :
    W1 m ρ c (Proc.devRef .tc main_v5) (ix2 D e) = m ((c : Thread nD τ).loc main_arg7) (ix2 e D) := by
  show StableHlo.after hostOps0 (W0 m ρ c) (Proc.devRef .tc main_v5) (ix2 D e) = _
  dsimp only [hostOps0]
  after_results
  exact swap_apply (m ((c : Thread nD τ).loc main_arg7)) D e

private theorem first_v7 (c : Dev nD) (D e : Fin 1024) :
    W1 m ρ c (Proc.devRef .tc main_v7) (ix2 D e) = m ((c : Thread nD τ).loc main_arg9) (ix2 e D) := by
  show StableHlo.after hostOps0 (W0 m ρ c) (Proc.devRef .tc main_v7) (ix2 D e) = _
  dsimp only [hostOps0]
  after_results
  exact swap_apply (m ((c : Thread nD τ).loc main_arg9)) D e

/-- A buffer the first stretch does not write holds what it was launched with. -/
private theorem first_keeps (c : Dev nD) {r : Ref sig .tc}
    (hr : r ∉ ([main_v0, main_v1, main_v2, main_v3, main_v4, main_v5, main_v6, main_v7, main_v8, main_v9,
      main_v10] : List (Ref sig .tc))) :
    W1 m ρ c (Proc.devRef .tc r) = m ((c : Thread nD τ).loc r) :=
  host0_keeps (W0 m ρ c) hr

/-! ## What the first projection finds -/
theorem V1_v8 (c : Dev nD) (β : Fin 2) (t : Fin 2048) (D : Fin 1024) :
    V1 m ρ c main_v8 (ix2 (row β t) D) = m ((c : Thread nD τ).loc main_arg0) (ix3 β t D) :=
  first_v8 m ρ c β t D
theorem V1_v1 (c : Dev nD) (D e : Fin 1024) :
    V1 m ρ c main_v1 (ix2 D e) = m ((c : Thread nD τ).loc main_arg3) (ix2 e D) :=
  first_v1 m ρ c D e
theorem V1_arg4 (c : Dev nD) (e : Fin 1024) :
    V1 m ρ c main_arg4 (ix1 e) = m ((c : Thread nD τ).loc main_arg4) (ix1 e) :=
  congrFun (first_keeps m ρ c (r := main_arg4) (by decide)) (ix1 e)

/-! ## What the second projection finds -/

/-- The first region and the stretch after it leave alone every buffer that is neither the region's array nor the
    folded output. -/
private theorem third_eq_first (c : Dev nD) (r : Ref sig .tc) (h1 : r ∉ ([main_v12] : List (Ref sig .tc)))
    (h0 : ∀ w, Pipeline.arrRef spec0 w ≠ r) :
    W3 m ρ c (Proc.devRef .tc r) = W1 m ρ c (Proc.devRef .tc r) :=
  (host1_keeps (W2 m ρ c) h1).trans (W2_of_ne m ρ c r h0)

theorem V3_v9 (c : Dev nD) (β : Fin 2) (t : Fin 2048) (D : Fin 1024) :
    V3 m ρ c main_v9 (ix2 (row β t) D) = m ((c : Thread nD τ).loc main_arg1) (ix3 β t D) :=
  (congrFun (third_eq_first m ρ c main_v9 (by decide) (by decide)) _).trans (first_v9 m ρ c β t D)
theorem V3_v3 (c : Dev nD) (D e : Fin 1024) :
    V3 m ρ c main_v3 (ix2 D e) = m ((c : Thread nD τ).loc main_arg5) (ix2 e D) :=
  (congrFun (third_eq_first m ρ c main_v3 (by decide) (by decide)) _).trans (first_v3 m ρ c D e)
theorem V3_arg6 (c : Dev nD) (e : Fin 1024) :
    V3 m ρ c main_arg6 (ix1 e) = m ((c : Thread nD τ).loc main_arg6) (ix1 e) :=
  congrFun ((third_eq_first m ρ c main_arg6 (by decide) (by decide)).trans
    (first_keeps m ρ c (r := main_arg6) (by decide))) (ix1 e)

/-! ## What the third projection finds -/

/-- Likewise the second region and the stretch after it. -/
private theorem fifth_eq_third (c : Dev nD) (r : Ref sig .tc) (h1 : r ∉ ([main_v14] : List (Ref sig .tc)))
    (h0 : ∀ w, Pipeline.arrRef spec1 w ≠ r) :
    W5 m ρ c (Proc.devRef .tc r) = W3 m ρ c (Proc.devRef .tc r) :=
  (host2_keeps (W4 m ρ c) h1).trans (W4_of_ne m ρ c r h0)

theorem V5_v10 (c : Dev nD) (β : Fin 2) (t : Fin 2048) (D : Fin 1024) :
    V5 m ρ c main_v10 (ix2 (row β t) D) = m ((c : Thread nD τ).loc main_arg2) (ix3 β t D) :=
  (congrFun ((fifth_eq_third m ρ c main_v10 (by decide) (by decide)).trans
    (third_eq_first m ρ c main_v10 (by decide) (by decide))) _).trans (first_v10 m ρ c β t D)
theorem V5_v5 (c : Dev nD) (D e : Fin 1024) :
    V5 m ρ c main_v5 (ix2 D e) = m ((c : Thread nD τ).loc main_arg7) (ix2 e D) :=
  (congrFun ((fifth_eq_third m ρ c main_v5 (by decide) (by decide)).trans
    (third_eq_first m ρ c main_v5 (by decide) (by decide))) _).trans (first_v5 m ρ c D e)
theorem V5_arg8 (c : Dev nD) (e : Fin 1024) :
    V5 m ρ c main_arg8 (ix1 e) = m ((c : Thread nD τ).loc main_arg8) (ix1 e) :=
  congrFun (((fifth_eq_third m ρ c main_arg8 (by decide) (by decide)).trans
    (third_eq_first m ρ c main_arg8 (by decide) (by decide))).trans
    (first_keeps m ρ c (r := main_arg8) (by decide))) (ix1 e)

/-! ## What the attention region finds: the three projections' outputs folded back to 2 × 2048 rows -/

/-- Likewise the third region and the stretch after it. -/
private theorem seventh_eq_fifth (c : Dev nD) (r : Ref sig .tc) (h1 : r ∉ ([main_v16] : List (Ref sig .tc)))
    (h0 : ∀ w, Pipeline.arrRef spec2 w ≠ r) :
    W7 m ρ c (Proc.devRef .tc r) = W5 m ρ c (Proc.devRef .tc r) :=
  (host3_keeps (W6 m ρ c) h1).trans (W6_of_ne m ρ c r h0)

/-- The second stretch folds the first region's output array back. -/
private theorem third_v12 (c : Dev nD) (β : Fin 2) (t : Fin 2048) (D : Fin 1024) :
    W3 m ρ c (Proc.devRef .tc main_v12) (ix3 β t D)
      = (dat0 (F := Ideal) (V1 m ρ) c).arrAt 3 cfg0.N (ix2 (row β t) D) := by
  show StableHlo.after hostOps1 (W2 m ρ c) (Proc.devRef .tc main_v12) (ix3 β t D) = _
  dsimp only [hostOps1]
  after_results
  refine (fold_apply (W2 m ρ c (Proc.devRef .tc main_v11)) β t D).trans ?_
  exact congrFun (W2_arr m ρ c 3) _

/-- The third stretch folds the second region's output array back. -/
private theorem fifth_v14 (c : Dev nD) (β : Fin 2) (t : Fin 2048) (D : Fin 1024) :
    W5 m ρ c (Proc.devRef .tc main_v14) (ix3 β t D)
      = (dat1 (F := Ideal) (V3 m ρ) c).arrAt 3 cfg1.N (ix2 (row β t) D) := by
  show StableHlo.after hostOps2 (W4 m ρ c) (Proc.devRef .tc main_v14) (ix3 β t D) = _
  dsimp only [hostOps2]
  after_results
  refine (fold_apply (W4 m ρ c (Proc.devRef .tc main_v13)) β t D).trans ?_
  exact congrFun (W4_arr m ρ c 3) _

/-- The fourth stretch folds the third region's output array back. -/
private theorem seventh_v16 (c : Dev nD) (β : Fin 2) (t : Fin 2048) (D : Fin 1024) :
    W7 m ρ c (Proc.devRef .tc main_v16) (ix3 β t D)
      = (dat2 (F := Ideal) (V5 m ρ) c).arrAt 3 cfg2.N (ix2 (row β t) D) := by
  show StableHlo.after hostOps3 (W6 m ρ c) (Proc.devRef .tc main_v16) (ix3 β t D) = _
  dsimp only [hostOps3]
  after_results
  refine (fold_apply (W6 m ρ c (Proc.devRef .tc main_v15)) β t D).trans ?_
  exact congrFun (W6_arr m ρ c 3) _

theorem V7_v12 (c : Dev nD) (β : Fin 2) (t : Fin 2048) (D : Fin 1024) :
    V7 m ρ c main_v12 (ix3 β t D) = (dat0 (F := Ideal) (V1 m ρ) c).arrAt 3 cfg0.N (ix2 (row β t) D) :=
  (congrFun ((seventh_eq_fifth m ρ c main_v12 (by decide) (by decide)).trans
    (fifth_eq_third m ρ c main_v12 (by decide) (by decide))) _).trans (third_v12 m ρ c β t D)
theorem V7_v14 (c : Dev nD) (β : Fin 2) (t : Fin 2048) (D : Fin 1024) :
    V7 m ρ c main_v14 (ix3 β t D) = (dat1 (F := Ideal) (V3 m ρ) c).arrAt 3 cfg1.N (ix2 (row β t) D) :=
  (congrFun (seventh_eq_fifth m ρ c main_v14 (by decide) (by decide)) _).trans (fifth_v14 m ρ c β t D)
theorem V7_v16 (c : Dev nD) (β : Fin 2) (t : Fin 2048) (D : Fin 1024) :
    V7 m ρ c main_v16 (ix3 β t D) = (dat2 (F := Ideal) (V5 m ρ) c).arrAt 3 cfg2.N (ix2 (row β t) D) :=
  seventh_v16 m ρ c β t D
theorem V7_v7 (c : Dev nD) (D e : Fin 1024) :
    V7 m ρ c main_v7 (ix2 D e) = m ((c : Thread nD τ).loc main_arg9) (ix2 e D) :=
  (congrFun (((seventh_eq_fifth m ρ c main_v7 (by decide) (by decide)).trans
    (fifth_eq_third m ρ c main_v7 (by decide) (by decide))).trans
    (third_eq_first m ρ c main_v7 (by decide) (by decide))) _).trans (first_v7 m ρ c D e)
theorem V7_arg10 (c : Dev nD) (e : Fin 1024) :
    V7 m ρ c main_arg10 (ix1 e) = m ((c : Thread nD τ).loc main_arg10) (ix1 e) :=
  congrFun ((((seventh_eq_fifth m ρ c main_arg10 (by decide) (by decide)).trans
    (fifth_eq_third m ρ c main_arg10 (by decide) (by decide))).trans
    (third_eq_first m ρ c main_arg10 (by decide) (by decide))).trans
    (first_keeps m ρ c (r := main_arg10) (by decide))) (ix1 e)

/-! ## The result array at the last boundary -/
theorem W8_v17 (c : Dev nD) :
    W8 m ρ c (Proc.devRef .tc main_v17) = (dat3 (F := Ideal) (V7 m ρ) c).arrAt 5 cfg3.N :=
  W8_arr m ρ c 5

end Cert.KernelIdeal.HostChain

end
-- ==== Proof.KernelValue.lean ====
/-
  The kernel's result array as the specified computation of its arguments.

  The attention region's output at (β, t, e) is attention over batch entry β of the three projections' outputs, each
  read back through the host's re-folding of rows to the projection region's array, and that array is the projection
  of the flattened input by the transposed weights: together, the specified computation of the launch memory.
-/
import proofs.«400153_j670014898403_3_alg».proof.Proof.Gen.KernelIdeal.Frame
import proofs.«400153_j670014898403_3_alg».proof.Proof.LinRegion0
import proofs.«400153_j670014898403_3_alg».proof.Proof.LinRegion1
import proofs.«400153_j670014898403_3_alg».proof.Proof.LinRegion2
import proofs.«400153_j670014898403_3_alg».proof.Proof.AttnRegion
import proofs.«400153_j670014898403_3_alg».proof.Proof.HostChain
import proofs.«400153_j670014898403_3_alg».proof.Proof.Spec
import Idealize.ShloMosaic.Lib.ValueIdx

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.Mha (row)

/-- One row projected: y[D] = Σ_D' x[D'] · W[D, D'] + b[D] (the weights as given, rows indexed by the output column). -/
def rowProj (x : Fin 1024 → EReal) (W : Fin 1024 → Fin 1024 → EReal) (b : Fin 1024 → EReal) (D : Fin 1024) : EReal :=
  (∑ D' : Fin 1024, x D' * W D D') + b D

variable (m : (ℓ : Loc nD τ sig) → Buf (Elt Ideal) ℓ) (ρ : Dev nD → PrngReg)

/-- The query projection as the attention region finds it, at (β, t, D), from the launch memory. -/
theorem projQ (c : Dev nD) (β : Fin 2) (t : Fin 2048) (D : Fin 1024) :
    V7 m ρ c main_v12 (ix3 β t D)
      = rowProj (fun D' => m ((c : Thread nD τ).loc main_arg0) (ix3 β t D')) (fun a b => m ((c : Thread nD τ).loc main_arg3) (ix2 a b)) (fun a => m ((c : Thread nD τ).loc main_arg4) (ix1 a)) D := by
  rw [HostChain.V7_v12 m ρ c β t D, Lin0.arr_apply (V1 m ρ) c (row β t) D]
  unfold Cert.Mha.lin rowProj
  simp only [HostChain.V1_v8 m ρ c, HostChain.V1_v1 m ρ c, HostChain.V1_arg4 m ρ c]

/-- The key projection as the attention region finds it, at (β, t, D), from the launch memory. -/
theorem projK (c : Dev nD) (β : Fin 2) (t : Fin 2048) (D : Fin 1024) :
    V7 m ρ c main_v14 (ix3 β t D)
      = rowProj (fun D' => m ((c : Thread nD τ).loc main_arg1) (ix3 β t D')) (fun a b => m ((c : Thread nD τ).loc main_arg5) (ix2 a b)) (fun a => m ((c : Thread nD τ).loc main_arg6) (ix1 a)) D := by
  rw [HostChain.V7_v14 m ρ c β t D, Lin1.arr_apply (V3 m ρ) c (row β t) D]
  unfold Cert.Mha.lin rowProj
  simp only [HostChain.V3_v9 m ρ c, HostChain.V3_v3 m ρ c, HostChain.V3_arg6 m ρ c]

/-- The value projection as the attention region finds it, at (β, t, D), from the launch memory. -/
theorem projV (c : Dev nD) (β : Fin 2) (t : Fin 2048) (D : Fin 1024) :
    V7 m ρ c main_v16 (ix3 β t D)
      = rowProj (fun D' => m ((c : Thread nD τ).loc main_arg2) (ix3 β t D')) (fun a b => m ((c : Thread nD τ).loc main_arg7) (ix2 a b)) (fun a => m ((c : Thread nD τ).loc main_arg8) (ix1 a)) D := by
  rw [HostChain.V7_v16 m ρ c β t D, Lin2.arr_apply (V5 m ρ) c (row β t) D]
  unfold Cert.Mha.lin rowProj
  simp only [HostChain.V5_v10 m ρ c, HostChain.V5_v5 m ρ c, HostChain.V5_arg8 m ρ c]

/-- THE RESULT ARRAY AT (β, t, e) after the run is the specified computation of the arguments as launched: attention
    over batch entry β of the three projections, against the transposed output weights and the output bias. -/
theorem result_apply (c : Dev nD) (β : Fin 2) (t : Fin 2048) (e : Fin 1024) :
    W8 m ρ c (Proc.devRef .tc main_v17) (ix3 β t e)
      = Cert.Mha.mha (fun β t D => m ((c : Thread nD τ).loc main_arg0) (ix3 β t D)) (fun β t D => m ((c : Thread nD τ).loc main_arg1) (ix3 β t D)) (fun β t D => m ((c : Thread nD τ).loc main_arg2) (ix3 β t D))
          (fun a b => m ((c : Thread nD τ).loc main_arg3) (ix2 a b)) (fun a b => m ((c : Thread nD τ).loc main_arg5) (ix2 a b)) (fun a b => m ((c : Thread nD τ).loc main_arg7) (ix2 a b)) (fun a b => m ((c : Thread nD τ).loc main_arg9) (ix2 a b))
          (fun a => m ((c : Thread nD τ).loc main_arg4) (ix1 a)) (fun a => m ((c : Thread nD τ).loc main_arg6) (ix1 a)) (fun a => m ((c : Thread nD τ).loc main_arg8) (ix1 a)) (fun a => m ((c : Thread nD τ).loc main_arg10) (ix1 a)) β t e := by
  rw [HostChain.W8_v17 m ρ c, AttnRegion.arr_apply (V7 m ρ) c β t e]
  unfold Cert.Mha.mha
  simp only [projQ m ρ c β, projK m ρ c β, projV m ρ c β, HostChain.V7_v7 m ρ c, HostChain.V7_arg10 m ρ c]
  rfl

end Cert.KernelIdeal.KernelValue

end
-- ==== Proof.RefValue.lean ====
/-
  The reference computes multi-head attention as specified.

  Its three projections contract the inputs' last axis with the weights' second axis and add the bias; the 1024
  columns are read as 16 heads of 64 and the heads moved in front of the rows; the scores are divided by 8, which
  on the extended reals is the product with 1/8; the row maximum is taken from the bottom element, and the further
  maximum with the bottom element changes nothing; the sum of the exponentials starts from zero; the heads' outputs
  are moved back behind the rows and flattened to 1024 columns, so the output projection's sum over 1024 columns is
  the sum over heads and coordinates.
-/
import proofs.«400153_j670014898403_3_alg».proof.Proof.Gen.ReferenceIdeal.Run
import proofs.«400153_j670014898403_3_alg».proof.Proof.Gen.ReferenceIdeal.Read
import proofs.«400153_j670014898403_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The word 0x41000000 is the real 8. -/
private theorem ofBits_eight : Ideal.ofBits .f32 0x41000000#32 = ((8 : ℝ) : EReal) := by
  simp [Ideal.ofBits, Ideal.ieee, -EReal.coe_mul]; norm_num

/-- The word 0x3E000000 is the real 1/8. -/
private theorem ofBits_eighth : Ideal.ofBits .f32 0x3E000000#32 = ((1 / 8 : ℝ) : EReal) := by
  simp [Ideal.ofBits, Ideal.ieee, -EReal.coe_mul]; norm_num

/-- The word 0xFF800000 is the bottom element. -/
private theorem ofBits_negInf : Ideal.ofBits .f32 0xFF800000#32 = (⊥ : EReal) := by
  simp [Ideal.ofBits, Ideal.ieee]

/-- A sum over 1024 columns is the sum over sixteen heads of sixty-four coordinates. -/
private theorem sum_col (f : Fin 1024 → EReal) :
    ∑ D : Fin 1024, f D = ∑ h : Fin 16, ∑ d : Fin 64, f (Cert.Mha.col h d) := by
  rw [← Fintype.sum_prod_type']
  refine (Fintype.sum_equiv (finProdFinEquiv (m := 16) (n := 64)) _ _ (fun p => ?_)).symm
  refine congrArg f (Fin.ext ?_)
  show 64 * p.1.val + p.2.val = p.2.val + 64 * p.1.val
  omega

/-- A projection of rows x by weights W with bias b, read at (β, t, D). -/
private abbrev projF (x : (⟨S2x2048x1024, .f32⟩ : BufTy).Contents (Elt Ideal)) (W : (⟨S1024x1024, .f32⟩ : BufTy).Contents (Elt Ideal))
    (b : (⟨S1024, .f32⟩ : BufTy).Contents (Elt Ideal)) (β : Fin 2) : Fin 2048 → Fin 1024 → EReal :=
  fun t D => (∑ k : Fin 1024, x (ix3 β t k) * W (ix2 D k)) + b (ix1 D)

/-- The first projection at (β, t, D): the contraction of row (β, t) with row D of the weights, plus the bias. -/
private theorem proj_apply (x : (⟨S2x2048x1024, .f32⟩ : BufTy).Contents (Elt Ideal)) (W : (⟨S1024x1024, .f32⟩ : BufTy).Contents (Elt Ideal))
    (b : (⟨S1024, .f32⟩ : BufTy).Contents (Elt Ideal)) (β : Fin 2) (t : Fin 2048) (D : Fin 1024) :
    val_main_v3 (F := Ideal) x W b (ix3 β t D) = projF x W b β t D := by
  rw [val_main_v3_apply, val_main_v0_apply, val_main_v2_apply, val_main_v1_apply]
  have el : ∀ k : Fin 1024, lidx_main_v0 (ix3 β t D) k = ix3 β t k := fun k =>
    funext fun a => by match a with | ⟨0, _⟩ => rfl | ⟨1, _⟩ => rfl | ⟨2, _⟩ => rfl
  have er : ∀ k : Fin 1024, ridx_main_v0 (ix3 β t D) k = ix2 D k := fun k =>
    funext fun a => by match a with | ⟨0, _⟩ => rfl | ⟨1, _⟩ => rfl
  have eb : idx_main_v1 (idx_main_v2 (ix3 β t D)) = ix1 D :=
    funext fun a => by match a with | ⟨0, _⟩ => rfl
  rw [eb]
  simp only [el, er]
  rfl

/-- The projection split into heads and the heads moved in front of the rows, at (β, h, t, d): column 64·h + d. -/
private theorem head_apply (x : (⟨S2x2048x1024, .f32⟩ : BufTy).Contents (Elt Ideal)) (W : (⟨S1024x1024, .f32⟩ : BufTy).Contents (Elt Ideal))
    (b : (⟨S1024, .f32⟩ : BufTy).Contents (Elt Ideal)) (β : Fin 2) (h : Fin 16) (t : Fin 2048) (d : Fin 64) :
    val_main_v5 (F := Ideal) x W b (ix4 β h t d) = projF x W b β t (Cert.Mha.col h d) := by
  have e : idx_main_v4 (idx_main_v5 (ix4 β h t d)) = ix3 β t (Cert.Mha.col h d) :=
    funext fun a => Fin.ext (by
      have hβ : β.val < 2 := β.isLt
      have hh : h.val < 16 := h.isLt
      have ht : t.val < 2048 := t.isLt
      have hd : d.val < 64 := d.isLt
      match a with
      | ⟨0, _⟩ => show (((β.val * 2048 + t.val) * 16 + h.val) * 64 + d.val) / 2097152 = β.val; omega
      | ⟨1, _⟩ => show (((β.val * 2048 + t.val) * 16 + h.val) * 64 + d.val) / 1024 % 2048 = t.val; omega
      | ⟨2, _⟩ => show (((β.val * 2048 + t.val) * 16 + h.val) * 64 + d.val) % 1024 = 64 * h.val + d.val; omega)
  rw [val_main_v5_apply, val_main_v4_apply, e, proj_apply]

/-- The scaled score at (β, h, t, j): the contraction of the two heads' rows, divided by 8, is the product with 1/8. -/
private theorem score_apply (x0 x1 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (β : Fin 2) (h : Fin 16) (t j : Fin 2048) :
    val_main_v20 (F := Ideal) x0 x1 x3 x4 x5 x6 (ix4 β h t j)
      = Cert.Mha.score (projF x0 x3 x4 β) (projF x1 x5 x6 β) h t j := by
  have e11 : val_main_v11 (F := Ideal) x1 x5 x6 = val_main_v5 (F := Ideal) x1 x5 x6 := rfl
  have el : ∀ k : Fin 64, lidx_main_v18 (ix4 β h t j) k = ix4 β h t k := fun k =>
    funext fun a => by match a with | ⟨0, _⟩ => rfl | ⟨1, _⟩ => rfl | ⟨2, _⟩ => rfl | ⟨3, _⟩ => rfl
  have er : ∀ k : Fin 64, ridx_main_v18 (ix4 β h t j) k = ix4 β h j k := fun k =>
    funext fun a => by match a with | ⟨0, _⟩ => rfl | ⟨1, _⟩ => rfl | ⟨2, _⟩ => rfl | ⟨3, _⟩ => rfl
  rw [val_main_v20_apply, val_main_v18_apply, val_main_v19_apply, val_main_cst_apply, e11]
  simp only [el, er, head_apply]
  rw [Ideal.ofBits_def, Ideal.hostDivf_def, ofBits_eight, Ideal.div_coe (by norm_num)]
  unfold Cert.Mha.score
  exact congrArg (_ * ·) ofBits_eighth.symm

/-- The row maximum at (β, h, t): the fold of the maximum from the bottom element over the row of scores. -/
private theorem rowmax_apply (x0 x1 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (β : Fin 2) (h : Fin 16) (t : Fin 2048) :
    val_main_v21 (F := Ideal) x0 x1 x3 x4 x5 x6 (ix3 β h t)
      = Cert.Mha.rowMax (Cert.Mha.score (projF x0 x3 x4 β) (projF x1 x5 x6 β) h t) := by
  have hR : S2x16x2048x2048.Reduces [3] S2x16x2048 := by decide
  unfold val_main_v21
  refine (Host.reduce_eq_fold_single FloatOps.maximumf _ _ reducesTo_S2x16x2048x2048_S2x16x2048_d3 hR h_S_ (ix3 β h t)).trans ?_
  have ek : ∀ k : Fin 2048, val_main_v20 (F := Ideal) x0 x1 x3 x4 x5 x6 (hR.lift (ix3 β h t) k)
      = Cert.Mha.score (projF x0 x3 x4 β) (projF x1 x5 x6 β) h t k := fun k => by
    have ei : hR.lift (ix3 β h t) k = ix4 β h t k :=
      funext fun a => by match a with | ⟨0, _⟩ => rfl | ⟨1, _⟩ => rfl | ⟨2, _⟩ => rfl | ⟨3, _⟩ => rfl
    rw [ei, score_apply]
  have ef : (val_main_v20 (F := Ideal) x0 x1 x3 x4 x5 x6 ∘ hR.lift (ix3 β h t))
      = Cert.Mha.score (projF x0 x3 x4 β) (projF x1 x5 x6 β) h t := funext ek
  rw [ef]
  rfl

/-- The shifted exponential at (β, h, t, j): the further maximum with the bottom element changes nothing. -/
private theorem expo_apply (x0 x1 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (β : Fin 2) (h : Fin 16) (t j : Fin 2048) :
    val_main_v27 (F := Ideal) x0 x1 x3 x4 x5 x6 (ix4 β h t j)
      = Cert.Mha.expo (Cert.Mha.score (projF x0 x3 x4 β) (projF x1 x5 x6 β) h t) j := by
  have ei : idx_main_v24 (idx_main_v25 (ix4 β h t j)) = ix3 β h t :=
    funext fun a => by match a with | ⟨0, _⟩ => rfl | ⟨1, _⟩ => rfl | ⟨2, _⟩ => rfl
  rw [val_main_v27_apply, val_main_v26_apply, val_main_v25_apply, val_main_v24_apply, ei, val_main_v23_apply,
    val_main_v22_apply, val_main_cst_1_apply, score_apply, rowmax_apply, Ideal.ofBits_def, ofBits_negInf,
    Ideal.maximumf_def, max_eq_right bot_le]
  rfl

/-- The sum of a row's shifted exponentials at (β, h, t), from zero. -/
private theorem expsum_apply (x0 x1 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (β : Fin 2) (h : Fin 16) (t : Fin 2048) :
    val_main_v28 (F := Ideal) x0 x1 x3 x4 x5 x6 (ix3 β h t)
      = ∑ j : Fin 2048, Cert.Mha.expo (Cert.Mha.score (projF x0 x3 x4 β) (projF x1 x5 x6 β) h t) j := by
  have ei : ∀ k : Fin 2048, idx_main_v28 (ix3 β h t) k = ix4 β h t k := fun k =>
    funext fun a => by match a with | ⟨0, _⟩ => rfl | ⟨1, _⟩ => rfl | ⟨2, _⟩ => rfl | ⟨3, _⟩ => rfl
  rw [val_main_v28_apply, val_main_cst_2_apply, Ideal.ofBits_def, Ideal.ofBits_zero_f32, zero_add]
  simp only [ei, expo_apply]

/-- The softmax weight at (β, h, t, j). -/
private theorem weight_apply (x0 x1 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (β : Fin 2) (h : Fin 16) (t j : Fin 2048) :
    val_main_v31 (F := Ideal) x0 x1 x3 x4 x5 x6 (ix4 β h t j)
      = Cert.Mha.weight (Cert.Mha.score (projF x0 x3 x4 β) (projF x1 x5 x6 β) h t) j := by
  have ei : idx_main_v29 (idx_main_v30 (ix4 β h t j)) = ix3 β h t :=
    funext fun a => by match a with | ⟨0, _⟩ => rfl | ⟨1, _⟩ => rfl | ⟨2, _⟩ => rfl
  rw [val_main_v31_apply, val_main_v30_apply, val_main_v29_apply, ei, expsum_apply, expo_apply, Ideal.hostDivf_def]
  rfl

/-- A head's output at (β, h, t, d): the weighted sum of the value rows. -/
private theorem headOut_apply (x0 x1 x2 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (β : Fin 2) (h : Fin 16) (t : Fin 2048) (d : Fin 64) :
    val_main_v32 (F := Ideal) x0 x1 x2 x3 x4 x5 x6 x7 x8 (ix4 β h t d)
      = Cert.Mha.headOut (projF x0 x3 x4 β) (projF x1 x5 x6 β) (projF x2 x7 x8 β) h t d := by
  have e17 : val_main_v17 (F := Ideal) x2 x7 x8 = val_main_v5 (F := Ideal) x2 x7 x8 := rfl
  have el : ∀ k : Fin 2048, lidx_main_v32 (ix4 β h t d) k = ix4 β h t k := fun k =>
    funext fun a => by match a with | ⟨0, _⟩ => rfl | ⟨1, _⟩ => rfl | ⟨2, _⟩ => rfl | ⟨3, _⟩ => rfl
  have er : ∀ k : Fin 2048, ridx_main_v32 (ix4 β h t d) k = ix4 β h k d := fun k =>
    funext fun a => by match a with | ⟨0, _⟩ => rfl | ⟨1, _⟩ => rfl | ⟨2, _⟩ => rfl | ⟨3, _⟩ => rfl
  rw [val_main_v32_apply, e17]
  simp only [el, er, weight_apply, head_apply]
  rfl

/-- The heads' outputs moved back behind the rows and flattened, at column 64·h + d of (β, t). -/
private theorem flat_apply (x0 x1 x2 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (β : Fin 2) (t : Fin 2048) (h : Fin 16) (d : Fin 64) :
    val_main_v34 (F := Ideal) x0 x1 x2 x3 x4 x5 x6 x7 x8 (ix3 β t (Cert.Mha.col h d))
      = Cert.Mha.headOut (projF x0 x3 x4 β) (projF x1 x5 x6 β) (projF x2 x7 x8 β) h t d := by
  have e : idx_main_v33 (idx_main_v34 (ix3 β t (Cert.Mha.col h d))) = ix4 β h t d :=
    funext fun a => Fin.ext (by
      have hβ : β.val < 2 := β.isLt
      have hh : h.val < 16 := h.isLt
      have ht : t.val < 2048 := t.isLt
      have hd : d.val < 64 := d.isLt
      match a with
      | ⟨0, _⟩ => show ((β.val * 2048 + t.val) * 1024 + (64 * h.val + d.val)) / 2097152 = β.val; omega
      | ⟨1, _⟩ => show ((β.val * 2048 + t.val) * 1024 + (64 * h.val + d.val)) / 64 % 16 = h.val; omega
      | ⟨2, _⟩ => show ((β.val * 2048 + t.val) * 1024 + (64 * h.val + d.val)) / 1024 % 2048 = t.val; omega
      | ⟨3, _⟩ => show ((β.val * 2048 + t.val) * 1024 + (64 * h.val + d.val)) % 64 = d.val; omega)
  rw [val_main_v34_apply, val_main_v33_apply, e, headOut_apply]

/-- THE REFERENCE'S RESULT AT (β, t, e) is the specified computation of the arguments read by coordinates. -/
theorem ref_apply (x0 x1 x2 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (β : Fin 2) (t : Fin 2048) (e : Fin 1024) :
    val_main_v38 (F := Ideal) x0 x1 x2 x3 x4 x5 x6 x7 x8 x9 x10 (ix3 β t e)
      = Cert.Mha.mha (fun β t D => x0 (ix3 β t D)) (fun β t D => x1 (ix3 β t D)) (fun β t D => x2 (ix3 β t D))
          (fun a b => x3 (ix2 a b)) (fun a b => x5 (ix2 a b)) (fun a b => x7 (ix2 a b)) (fun a b => x9 (ix2 a b))
          (fun a => x4 (ix1 a)) (fun a => x6 (ix1 a)) (fun a => x8 (ix1 a)) (fun a => x10 (ix1 a)) β t e := by
  have el : ∀ k : Fin 1024, lidx_main_v35 (ix3 β t e) k = ix3 β t k := fun k =>
    funext fun a => by match a with | ⟨0, _⟩ => rfl | ⟨1, _⟩ => rfl | ⟨2, _⟩ => rfl
  have er : ∀ k : Fin 1024, ridx_main_v35 (ix3 β t e) k = ix2 e k := fun k =>
    funext fun a => by match a with | ⟨0, _⟩ => rfl | ⟨1, _⟩ => rfl
  have eb : idx_main_v36 (idx_main_v37 (ix3 β t e)) = ix1 e :=
    funext fun a => by match a with | ⟨0, _⟩ => rfl
  rw [val_main_v38_apply, val_main_v35_apply, val_main_v37_apply, val_main_v36_apply, eb]
  simp only [el, er]
  rw [sum_col]
  simp only [flat_apply]
  rfl

end Cert.ReferenceIdeal.RefValue

end
-- ==== Proof.lean ====
/-
  Multi-head attention: a Pallas kernel of four launches against a jnp reference, equal on the extended reals.

  The kernel projects the flattened query, key and value inputs by the transposed weight matrices (three launches over
  blocks of 512 rows), then, in one launch over blocks of 256 query rows of one batch entry, takes each of the sixteen
  heads' scores scaled by 1/8, their row-wise softmax, the weighted value rows and the head's 64 rows of the
  transposed output weights, adds the sixteen contributions and the bias. The reference does the same with whole-array
  contractions, dividing the scores by 8 and contracting all 1024 columns of the concatenated heads at once. On the
  extended reals a change of float format is the identity, dividing by 8 is multiplying by 1/8, a maximum with the
  bottom element and a sum from zero change nothing, and the sum over 1024 columns is the sum over sixteen heads of
  sixty-four coordinates; so both programs compute one function of the arguments (Spec.lean), index by index.

  The three frames are the generated ones (the reference's is its generated run with the result dropped); the
  idealization rewrote nothing, so `preserves` is trivial; `algebraic` pairs the kernel's run, its result array read at
  the last boundary (KernelRun.lean, KernelValue.lean), with the reference's generated run (RefValue.lean).
-/
import proofs.«400153_j670014898403_3_alg».proof.Defs
import proofs.«400153_j670014898403_3_alg».proof.Proof.Gen.Kernel
import proofs.«400153_j670014898403_3_alg».proof.Proof.Gen.Kernel.Skeleton
import proofs.«400153_j670014898403_3_alg».proof.Proof.Gen.Kernel.Launch
import proofs.«400153_j670014898403_3_alg».proof.Proof.Gen.Kernel.Points
import proofs.«400153_j670014898403_3_alg».proof.Proof.Gen.Kernel.Frame
import proofs.«400153_j670014898403_3_alg».proof.Proof.Gen.KernelIdeal
import proofs.«400153_j670014898403_3_alg».proof.Proof.Gen.KernelIdeal.Skeleton
import proofs.«400153_j670014898403_3_alg».proof.Proof.Gen.KernelIdeal.Launch
import proofs.«400153_j670014898403_3_alg».proof.Proof.Gen.KernelIdeal.Points
import proofs.«400153_j670014898403_3_alg».proof.Proof.Gen.KernelIdeal.Frame
import proofs.«400153_j670014898403_3_alg».proof.Proof.Gen.ReferenceIdeal
import proofs.«400153_j670014898403_3_alg».proof.Proof.Gen.Pre_finite_inputs
import proofs.«400153_j670014898403_3_alg».proof.Proof.Gen.ReferenceIdeal.Run
import proofs.«400153_j670014898403_3_alg».proof.Proof.Gen.ReferenceIdeal.Read
import proofs.«400153_j670014898403_3_alg».proof.Proof.KernelRun
import proofs.«400153_j670014898403_3_alg».proof.Proof.KernelValue
import proofs.«400153_j670014898403_3_alg».proof.Proof.RefValue
import Idealize.ShloMosaic.Adequacy
import Idealize.ShloMosaic.Init
import Idealize.ShloMosaic.Lib.ValueIdx

noncomputable section

namespace Cert.Proof

open Idealize.ShloMosaic Idealize.ShloMosaic.ValueIdx Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the same result array: the kernel's is the
    specified computation of its launch memory, the reference's the same computation of its own, and the two
    memories hold the same arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W8 m ρ c (Proc.devRef .tc Cert.KernelIdeal.main_v17),
    Cert.KernelIdeal.RunResult.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq]
  funext i
  obtain ⟨β, t, e, rfl⟩ : ∃ (β : Fin 2) (t : Fin 2048) (e : Fin 1024), i = ix3 β t e := ⟨i 0, i 1, i 2, eq_ix3 i⟩
  obtain ⟨h0, h1, h2, h3, h4, h5, h6, h7, h8, h9, h10⟩ := hagree c
  rw [Cert.ReferenceIdeal.RefValue.ref_apply, h0, h1, h2, h3, h4, h5, h6, h7, h8, h9, h10]
  exact (Cert.KernelIdeal.KernelValue.result_apply m ρ c β t e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
